-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S600000x1 : Shape := ⟨2, ![600000, 1]⟩
abbrev S128x128 : Shape := ⟨2, ![128, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v32 : IVec S600000 1) (main_v34 : IVec S600000 32) : IVec S_ 1 :=
  let main_c_11 : IVec S_ 32 := constantI S_ 32 50000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg2 : IVec S2x600000 32) (main_arg5 : FVec F S128x128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : IVec S1x600000 32 := (extractStridedSlice S1x600000 ![0, 0] · slices_S2x600000_S1x600000_0_0) main_arg2
  let main_v30 : IVec S600000 32 := shapeCast S600000 main_v29 shapeCasts_S1x600000_S600000
  let main_c_10 : IVec S_ 32 := constantI S_ 32 0#32
  let main_v31 : IVec S600000 32 := broadcastInDim S600000 ![] bcast_S_S600000 main_c_10
  let main_v32 : IVec S600000 1 := cmpi .sge main_v30 main_v31
  let main_v33 : IVec S1x600000 32 := (extractStridedSlice S1x600000 ![0, 0] · slices_S2x600000_S1x600000_0_0) main_arg2
  let main_v34 : IVec S600000 32 := shapeCast S600000 main_v33 shapeCasts_S1x600000_S600000
  fn_part2 (F := F) main_v28 main_v32 main_v34

def fn {F : FTy → Type} [FloatOps F] (main_arg0 : FVec F S50000x128 .f32) (main_arg1 : FVec F S600000x128 .f32) (main_arg2 : IVec S2x600000 32) (main_arg3 : FVec F S600000x1 .f32) (main_arg4 : FVec F S128x128 .f32) (main_arg5 : FVec F S128x128 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S600000x1 .f32 := Host.absf main_arg3
  let main_cst_2 : FVec F S_ .f32 := constant S_ .f32 0x7F800000#32
  let main_v10 : FVec F S600000x1 .f32 := broadcastInDim S600000x1 ![] bcast_S_S600000x1 main_cst_2
  let main_v11 : IVec S600000x1 1 := cmpf .olt main_v9 main_v10
  let main_c_3 : IVec S_ 1 := constantI S_ 1 1#1
  let main_v12 : IVec S_ 1 := (fun x v => Host.reduce IntOp.andi x v reducesTo_S600000x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S600000x1 : Shape := ⟨2, ![600000, 1]⟩
abbrev S128x128 : Shape := ⟨2, ![128, 128]⟩
abbrev S128x8 : Shape := ⟨2, ![128, 8]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S1x600000 : Shape := ⟨2, ![1, 600000]⟩
abbrev S600000 : Shape := ⟨1, ![600000]⟩
abbrev S_ : Shape := ⟨0, ![]⟩
abbrev S1 : Shape := ⟨1, ![1]⟩
abbrev S1x1 : Shape := ⟨2, ![1, 1]⟩
abbrev S8x128 : Shape := ⟨2, ![8, 128]⟩
abbrev S6000x128 : Shape := ⟨2, ![6000, 128]⟩
abbrev S6000x1 : Shape := ⟨2, ![6000, 1]⟩
abbrev S6000x8 : Shape := ⟨2, ![6000, 8]⟩

abbrev nBuf : Space → Nat
  | .hbm => 95
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S600000x1, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x8, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x384, .f32⟩
  | .hbm, ⟨12, _⟩ => ⟨S50000x384, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S1, .i32⟩
  | .hbm, ⟨29, _⟩ => ⟨S_, .i32⟩
  | .hbm, ⟨30, _⟩ => ⟨S600000x1, .i32⟩
  | .hbm, ⟨31, _⟩ => ⟨S600000x1, .i1⟩
  | .hbm, ⟨32, _⟩ => ⟨S1x1, .i32⟩
  | .hbm, ⟨33, _⟩ => ⟨S600000x1, .i32⟩
  | .hbm, ⟨34, _⟩ => ⟨S600000x1, .i1⟩
  | .hbm, ⟨35, _⟩ => ⟨S600000x1, .i1⟩
  | .hbm, ⟨36, _⟩ => ⟨S_, .i1⟩
  | .hbm, ⟨37, _⟩ => ⟨S600000, .i1⟩
  | .hbm, ⟨38, _⟩ => ⟨S600000x128, .f32⟩
  | .hbm, ⟨39, _⟩ => ⟨S600000x128, .i1⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S1, .i32⟩
  | .hbm, ⟨52, _⟩ => ⟨S_, .i32⟩
  | .hbm, ⟨53, _⟩ => ⟨S600000x1, .i32⟩
  | .hbm, ⟨54, _⟩ => ⟨S600000x1, .i1⟩
  | .hbm, ⟨55, _⟩ => ⟨S1x1, .i32⟩
  | .hbm, ⟨56, _⟩ => ⟨S600000x1, .i32⟩
  | .hbm, ⟨57, _⟩ => ⟨S600000x1, .i1⟩
  | .hbm, ⟨58, _⟩ => ⟨S600000x1, .i1⟩
  | .hbm, ⟨59, _⟩ => ⟨S_, .i1⟩
  | .hbm, ⟨60, _⟩ => ⟨S600000, .i1⟩
  | .hbm, ⟨61, _⟩ => ⟨S600000x128, .f32⟩
  | .hbm, ⟨62, _⟩ => ⟨S600000x128, .i1⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S1, .i32⟩
  | .hbm, ⟨75, _⟩ => ⟨S_, .i32⟩
  | .hbm, ⟨76, _⟩ => ⟨S600000x1, .i32⟩
  | .hbm, ⟨77, _⟩ => ⟨S600000x1, .i1⟩
  | .hbm, ⟨78, _⟩ => ⟨S1x1, .i32⟩
  | .hbm, ⟨79, _⟩ => ⟨S600000x1, .i32⟩
  | .hbm, ⟨80, _⟩ => ⟨S600000x1, .i1⟩
  | .hbm, ⟨81, _⟩ => ⟨S600000x1, .i1⟩
  | .hbm, ⟨82, _⟩ => ⟨S_, .i1⟩
  | .hbm, ⟨83, _⟩ => ⟨S600000, .i1⟩
  | .hbm, ⟨84, _⟩ => ⟨S600000x128, .f32⟩
  | .hbm, ⟨85, _⟩ => ⟨S600000x128, .i1⟩
  | .hbm, ⟨86, _⟩ => ⟨S_, .f32⟩
  | .hbm, ⟨87, _⟩ => ⟨S600000x128, .f32⟩
  | .hbm, ⟨88, _⟩ => ⟨S600000x128, .f32⟩
  | .hbm, ⟨89, _⟩ => ⟨S8x128, .f32⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x1, .f32⟩
  | .local _ .vmem, ⟨14, _⟩ => ⟨S6000x1, .f32⟩
  | .local _ .vmem, ⟨15, _⟩ => ⟨S128x8, .f32⟩
  | .local _ .vmem, ⟨16, _⟩ => ⟨S8x128, .f32⟩
  | .local _ .vmem, ⟨17, _⟩ => ⟨S6000x128, .f32⟩
  | .local _ .vmem, ⟨18, _⟩ => ⟨S6000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v12 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v13 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_cst_0 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  transposes_S128x8_S8x128_1_0 : S128x8.Transposes [1, 0] S8x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x1_S6000x1_0_0 : ∀ a, (![0, 0] : Fin 2 → Nat) a + S6000x1.size a ≤ S6000x1.size a
  h_S6000x1 : 0 < S6000x1.numel
  inb_S128x8_S128x8_0_0 : ∀ a, (![0, 0] : Fin 2 → Nat) a + S128x8.size a ≤ S128x8.size a
  h_S128x8 : 0 < S128x8.numel
  broadcasts_S6000x1_S6000x8 : S6000x1.Broadcasts S6000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  bcast_S_S50000x128 : S_.BroadcastsInDim S50000x128 (![] : Fin 0 → Fin S50000x128.rank)
  dot_S5000x128_S128x384_S5000x384_1_0_0_1_n_n_wf : DotDims.WF S5000x128 S128x384 S5000x384 [1] [0] [0] [1] [] []
  gather_S50000x128_S600000x1_S600000x128_1_0_n_n_0_1_1128_wf : GatherDims.WF S50000x128 S600000x1 S600000x128 [1] [0] [] [0] [] 1 ![1, 128]
  dot_S6000x128_S128x8_S6000x8_1_0_0_1_n_n_wf : DotDims.WF S6000x128 S128x8 S6000x8 [1] [0] [0] [1] [] []
  dot_S6000x8_S8x128_S6000x128_1_0_0_1_n_n_wf : DotDims.WF S6000x8 S8x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S600000x128.size a
  hwx1_2 : ∀ i : grid1.Coords, EltTy.bits .f32 = 32 ∨ (Rect.block (s := S600000x128) S6000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x1.size a ≤ S600000x1.size a
  hwx1_4 : ∀ i : grid1.Coords, EltTy.bits .f32 = 32 ∨ (Rect.block (s := S600000x1) S6000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x128.size a ≤ S600000x128.size a
  hwx1_7 : ∀ i : grid1.Coords, EltTy.bits .f32 = 32 ∨ (Rect.block (s := S600000x128) S6000x128.size (cc1_transform_7 i) (hinb1_7 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x8_S6000x8_1_0_0_1_n_n : DotDims S6000x128 S128x8 S6000x8 where
  lhsContracting := [1]
  rhsContracting := [0]
  lhsNonContracting := [0]
  rhsNonContracting := [1]
  lhsBatch := []
  rhsBatch := []
  wf := dot_S6000x128_S128x8_S6000x8_1_0_0_1_n_n_wf
def dot_S6000x8_S8x128_S6000x128_1_0_0_1_n_n : DotDims S6000x8 S8x128 S6000x128 where
  lhsContracting := [1]
  rhsContracting := [0]
  lhsNonContracting := [0]
  rhsNonContracting := [1]
  lhsBatch := []
  rhsBatch := []
  wf := dot_S6000x8_S8x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S6000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S6000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S6000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S6000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S600000x1 : Shape := ⟨2, ![600000, 1]⟩
abbrev S128x128 : Shape := ⟨2, ![128, 128]⟩
abbrev S50000x8x16 : Shape := ⟨3, ![50000, 8, 16]⟩
abbrev S1x600000 : Shape := ⟨2, ![1, 600000]⟩
abbrev S600000 : Shape := ⟨1, ![600000]⟩
abbrev S_ : Shape := ⟨0, ![]⟩
abbrev S600000x8x16 : Shape := ⟨3, ![600000, 8, 16]⟩
abbrev S600000x8 : Shape := ⟨2, ![600000, 8]⟩
abbrev S600000x8x1 : Shape := ⟨3, ![600000, 8, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S600000x1, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S50000x128, .f32⟩
  | .hbm, ⟨9, _⟩ => ⟨S50000x8x16, .f32⟩
  | .hbm, ⟨10, _⟩ => ⟨S128x128, .f32⟩
  | .hbm, ⟨11, _⟩ => ⟨S50000x128, .f32⟩
  | .hbm, ⟨12, _⟩ => ⟨S50000x8x16, .f32⟩
  | .hbm, ⟨13, _⟩ => ⟨S128x128, .f32⟩
  | .hbm, ⟨14, _⟩ => ⟨S50000x128, .f32⟩
  | .hbm, ⟨15, _⟩ => ⟨S50000x8x16, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x8x16, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x8x16, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x8x16, .f32⟩
  | .hbm, ⟨47, _⟩ => ⟨S600000x8x16, .f32⟩
  | .hbm, ⟨48, _⟩ => ⟨S600000x8x16, .f32⟩
  | .hbm, ⟨49, _⟩ => ⟨S600000x8x16, .f32⟩
  | .hbm, ⟨50, _⟩ => ⟨S_, .f32⟩
  | .hbm, ⟨51, _⟩ => ⟨S600000x8, .f32⟩
  | .hbm, ⟨52, _⟩ => ⟨S_, .f32⟩
  | .hbm, ⟨53, _⟩ => ⟨S_, .f32⟩
  | .hbm, ⟨54, _⟩ => ⟨S600000x8, .f32⟩
  | .hbm, ⟨55, _⟩ => ⟨S600000x8, .f32⟩
  | .hbm, ⟨56, _⟩ => ⟨S600000x8, .f32⟩
  | .hbm, ⟨57, _⟩ => ⟨S600000x8, .f32⟩
  | .hbm, ⟨58, _⟩ => ⟨S600000x8x1, .f32⟩
  | .hbm, ⟨59, _⟩ => ⟨S600000x8x16, .f32⟩
  | .hbm, ⟨60, _⟩ => ⟨S600000x8x16, .f32⟩
  | .hbm, ⟨61, _⟩ => ⟨S_, .f32⟩
  | .hbm, ⟨62, _⟩ => ⟨S50000x8x16, .f32⟩
  | .hbm, ⟨63, _⟩ => ⟨S600000x1, .i32⟩
  | .hbm, ⟨64, _⟩ => ⟨S50000x8x16, .f32⟩
  | .hbm, ⟨65, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  transposes_S128x128_S128x128_1_0 : S128x128.Transposes [1, 0] S128x128
  shapeCasts_S50000x128_S50000x8x16 : S50000x128.ShapeCasts S50000x8x16
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x128_S600000x8x16 : S600000x128.ShapeCasts S600000x8x16
  reducesTo_S600000x8x16_S600000x8_d2 : S600000x8x16.ReducesTo [2] S600000x8
  h_S_ : 0 < S_.numel
  bcast_S_S600000x8 : S_.BroadcastsInDim S600000x8 (![] : Fin 0 → Fin S600000x8.rank)
  bcast_S600000x1_S600000x8_0_1 : S600000x1.BroadcastsInDim S600000x8 (![0, 1] : Fin 2 → Fin S600000x8.rank)
  bcast_S600000x8_S600000x8x1_0_1 : S600000x8.BroadcastsInDim S600000x8x1 (![0, 1] : Fin 2 → Fin S600000x8x1.rank)
  bcast_S600000x8x1_S600000x8x16_0_1_2 : S600000x8x1.BroadcastsInDim S600000x8x16 (![0, 1, 2] : Fin 3 → Fin S600000x8x16.rank)
  bcast_S_S50000x8x16 : S_.BroadcastsInDim S50000x8x16 (![] : Fin 0 → Fin S50000x8x16.rank)
  shapeCasts_S50000x8x16_S50000x128 : S50000x8x16.ShapeCasts S50000x128
  dot_S50000x128_S128x128_S50000x128_1_0_0_1_n_n_wf : DotDims.WF S50000x128 S128x128 S50000x128 [1] [0] [0] [1] [] []
  gather_S50000x8x16_S600000x1_S600000x8x16_12_0_n_n_0_1_1816_wf : GatherDims.WF S50000x8x16 S600000x1 S600000x8x16 [1, 2] [0] [] [0] [] 1 ![1, 8, 16]
  scatter_S50000x8x16_S600000x1_S600000x8x16_12_0_0_1_wf : ScatterDims.WF S50000x8x16 S600000x1 S600000x8x16 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S600000x1_S600000x8x16_12_0_n_n_0_1_1816 : GatherDims S50000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S50000x8x16_S600000x1_S600000x8x16_12_0_n_n_0_1_1816_wf
def scatter_S50000x8x16_S600000x1_S600000x8x16_12_0_0_1 : ScatterDims S50000x8x16 S600000x1 S600000x8x16 where
  updateWindowDims := [1, 2]
  insertedWindowDims := [0]
  scatterDimsToOperandDims := [0]
  indexVectorDim := 1
  wf := scatter_S50000x8x16_S600000x1_S600000x8x16_12_0_0_1_wf

class Facts : Prop extends Facts₀ where

variable [Facts]
-- ==== Proof.RefRead.lean ====
/-
  The reference's run and its stages read at an index are taken from the generated modules; this module only brings
  them in for the modules that state the reference's result as a function of the arguments.
-/
import proofs.«431115_j89910845374839_1_alg».proof.Proof.Gen.ReferenceIdeal.Run
import proofs.«431115_j89910845374839_1_alg».proof.Proof.Gen.ReferenceIdeal.Read
-- ==== Proof.MsgSpec.lean ====
/-
  The message-passing layer as one function of its seven arguments, over the extended reals.

  Every node row is projected three times (queries, keys, values: row n against row d of the weight matrix).  An edge
  e from source node s to destination node t carries, at feature d in head H = d / 16, the message
      ((∑ over the 16 lanes l of head H of q[t, l] · w[e, l] · k[s, l]) · 1/4 · cutoff[e]) · v[s, d],
  and a node's result row is the sum of the messages of the edges whose destination word names it.  A node is named
  by a 32-bit word read as a signed integer and clamped into the table, which is how a row gather reads it.
-/
import Idealize.ShloMosaic.PureOps.Ideal
import Idealize.ShloMosaic.PureOps.Ideal.Laws
import Idealize.ShloMosaic.Lib.ValueIdx

open scoped BigOperators

noncomputable section

namespace Cert.MsgSpec

open Idealize.ShloMosaic Idealize.ShloMosaic.ValueIdx

abbrev NodeArr : Type := (⟨2, ![50000, 128]⟩ : Shape).Idx → EReal
abbrev EdgeArr : Type := (⟨2, ![600000, 128]⟩ : Shape).Idx → EReal
abbrev CutArr : Type := (⟨2, ![600000, 1]⟩ : Shape).Idx → EReal
abbrev WArr : Type := (⟨2, ![128, 128]⟩ : Shape).Idx → EReal
abbrev IdxArr : Type := (⟨2, ![2, 600000]⟩ : Shape).Idx → BitVec 32

/-- The head a feature belongs to. -/
def headOf (d : Fin 128) : Fin 8 := ⟨d.val / 16, by omega⟩
/-- Lane j of head h. -/
def lane (h : Fin 8) (j : Fin 16) : Fin 128 := ⟨16 * h.val + j.val, by omega⟩
/-- A feature's lane within its head. -/
def laneOf (d : Fin 128) : Fin 16 := ⟨d.val % 16, by omega⟩

theorem lane_headOf_laneOf (d : Fin 128) : lane (headOf d) (laneOf d) = d := by
  apply Fin.ext; simp only [lane, headOf, laneOf]; omega
theorem headOf_lane (h : Fin 8) (j : Fin 16) : headOf (lane h j) = h := by
  apply Fin.ext; simp only [lane, headOf]; omega

/-- The block-diagonal 0/1 mask: feature d belongs to head h. -/
def hm (d : Fin 128) (h : Fin 8) : EReal := if d.val / 16 = h.val then 1 else 0

/-- A linear layer without bias: row n of x against row d of W. -/
def proj (x : NodeArr) (W : WArr) (n : Fin 50000) (d : Fin 128) : EReal := ∑ k : Fin 128, x (ix2 n k) * W (ix2 d k)

/-- The node a word names: the word read signed, clamped into the table. -/
def node (wd : BitVec 32) : Fin 50000 := ⟨min wd.toInt.toNat 49999, by omega⟩

/-- The attention score of an edge in head H before scaling: the lane sum of q · w · k. -/
def score (x : NodeArr) (w : EdgeArr) (ei : IdxArr) (Wq Wk : WArr) (e : Fin 600000) (H : Fin 8) : EReal :=
  ∑ j : Fin 16, proj x Wq (node (ei (ix2 1 e))) (lane H j) * w (ix2 e (lane H j)) * proj x Wk (node (ei (ix2 0 e))) (lane H j)

/-- The message of edge e at feature d. -/
def msg (x : NodeArr) (w : EdgeArr) (ei : IdxArr) (cut : CutArr) (Wq Wk Wv : WArr) (e : Fin 600000) (d : Fin 128) : EReal :=
  (score x w ei Wq Wk e (headOf d) * ((1 / 4 : ℝ) : EReal) * cut (ix2 e 0)) * proj x Wv (node (ei (ix2 0 e))) d

/-- The layer's result at node n, feature d: the messages of the edges whose destination word names n. -/
def out (x : NodeArr) (w : EdgeArr) (ei : IdxArr) (cut : CutArr) (Wq Wk Wv : WArr) (n : Fin 50000) (d : Fin 128) : EReal :=
  ∑ e : Fin 600000, if (ei (ix2 1 e)).toInt = (n.val : Int) then msg x w ei cut Wq Wk Wv e d else 0

end Cert.MsgSpec

end
-- ==== Proof.MsgMath.lean ====
/-
  The arithmetic the two programs differ by, over the extended reals: the head mask's two matrix products are a lane
  sum and a head selection, and dividing by the square root of sixteen is multiplying by a quarter.
-/
import proofs.«431115_j89910845374839_1_alg».proof.Proof.MsgSpec

open scoped BigOperators

noncomputable section

namespace Cert.MsgMath

open Idealize.ShloMosaic Cert.MsgSpec

/-- The word 0x3E800000 is a quarter. -/
theorem ofBits_quarter : Ideal.ofBits .f32 0x3E800000#32 = ((1 / 4 : ℝ) : EReal) := by
  simp [Ideal.ofBits, Ideal.ieee, -EReal.coe_mul]; norm_num

/-- The word 0x41800000 is sixteen. -/
theorem ofBits_sixteen : Ideal.ofBits .f32 0x41800000#32 = ((16 : ℝ) : EReal) := by
  simp [Ideal.ofBits, Ideal.ieee, -EReal.coe_mul]; norm_num

/-- Dividing by the square root of sixteen is multiplying by a quarter, on every extended real. -/
theorem div_sqrt_sixteen (x : EReal) : Ideal.div x (Ideal.sqrt (Ideal.ofBits .f32 0x41800000#32)) = x * ((1 / 4 : ℝ) : EReal) := by
  have h4 : Real.sqrt 16 = 4 := by
    rw [show (16 : ℝ) = 4 ^ 2 by norm_num]; exact Real.sqrt_sq (by norm_num)
  rw [ofBits_sixteen, Ideal.sqrt_coe, if_neg (by norm_num), h4]
  exact Ideal.div_coe (by norm_num) x

/-- A sum over the 128 features against column h of the mask is the sum over head h's 16 lanes. -/
theorem sum_mul_hm (f : Fin 128 → EReal) (h : Fin 8) : ∑ d : Fin 128, f d * hm d h = ∑ j : Fin 16, f (lane h j) := by
  -- the mask keeps exactly the features of head h, and j ↦ lane h j lists them once each
  simp only [hm, mul_ite, mul_one, mul_zero]
  rw [← Finset.sum_filter]
  symm
  apply Finset.sum_bij (fun j _ => lane h j)
  · intro j _
    simp only [Finset.mem_filter, Finset.mem_univ, true_and, lane]
    omega
  · intro a _ b _ hab
    have hv := congrArg Fin.val hab
    simp only [lane] at hv
    exact Fin.ext (by omega)
  · intro d hd
    simp only [Finset.mem_filter, Finset.mem_univ, true_and] at hd
    refine ⟨laneOf d, Finset.mem_univ _, ?_⟩
    apply Fin.ext
    simp only [lane, laneOf]
    omega
  · intro j _
    rfl

/-- A sum over the 8 heads against the mask's row d picks the head of d. -/
theorem sum_hm_pick (g : Fin 8 → EReal) (d : Fin 128) : ∑ h : Fin 8, g h * hm d h = g (headOf d) := by
  -- only the head of d has a nonzero mask entry, and that entry is one
  rw [Finset.sum_eq_single (headOf d)]
  · simp [hm, headOf]
  · intro h _ hne
    have hn : ¬ d.val / 16 = h.val := fun e => hne (Fin.ext e.symm)
    simp [hm, hn]
  · intro hn
    exact absurd (Finset.mem_univ _) hn

end Cert.MsgMath

end
-- ==== Proof.LibSlabRows.lean ====
/-
  Gathers and accumulating scatters of whole slabs of a rank-3 table, read at an index given by coordinates.

  The table is [N, A, B]: N slabs of A × B entries.  A gather by a column of R start words reads, at (r, a, b), the
  table at slab idx[r, 0] (the word read as a signed integer and clamped into [0, N - 1], since a slice is one
  slab) and entry (a, b).  An accumulating scatter of R update slabs adds update (r, a, b) to the table entry
  (idx[r, 0], a, b) when the word, read signed and NOT clamped, names a slab of the table, and drops it otherwise; so
  a table entry receives the sum of the update entries (r, a, b) over the positions r whose word names its slab.
-/
import Idealize.ShloMosaic.PureOps.Contract
import Idealize.ShloMosaic.PureOps.ShapeOps
import Idealize.ShloMosaic.PureOps.Ideal
import Idealize.ShloMosaic.Lib.ValueIdx

open scoped BigOperators

namespace Cert.LibSlabRows

open Idealize.ShloMosaic Idealize.ShloMosaic.ValueIdx

variable {α : Type}

/-- The dimension numbers of a gather of whole slabs: operand [N, A, B], start indices [R, 1], result [R, A, B]; the
    result's axes 1 and 2 are the offset axes, the operand's axis 0 is collapsed and is the one the start index names,
    and a slice is one slab [1, A, B]. -/
abbrev gatherDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

section GatherAxes
variable {N A B R w : Nat}
  (wf : GatherDims.WF ⟨3, ![N, A, B]⟩ ⟨2, ![R, 1]⟩ ⟨3, ![R, A, B]⟩ [1, 2] [0] [] [0] [] 1 ![1, A, B])
  (idx : IVec ⟨2, ![R, 1]⟩ w)

/-- The slab axis of the operand index: the start word at [r, 0], read signed and clamped into [0, N − 1]; this
    axis is collapsed and not a batching axis, so nothing is added to the start. -/
private theorem gather_axis0 (r : Fin R) (a : Fin A) (b : Fin B) :
    ((gatherDims N A B R wf).operandIdx (ix3 r a b) idx 0).val
      = min (idx (ix2 r (0 : Fin 1))).toInt.toNat (N - 1) := by
  show (gatherDims N A B R wf).start (ix3 r a b) idx 0 + (gatherDims N A B R wf).batchCoord (ix3 r a b) 0
      + (gatherDims N A B R wf).offCoord (ix3 r a b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (gatherDims N A B R wf).startIndexMap from List.mem_singleton.mpr rfl)]
  -- the start word is read at the result's position r and component 0
  have hsi : (gatherDims N A B R wf).siIdx (ix3 r a b) ⟨List.idxOf (0 : Fin 3) (gatherDims N A B R wf).startIndexMap,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]
  rfl

/-- The first entry axis of the operand index: the start index map does not name it, so the start is zero; it is the
    first kept axis, so the offset is the result's coordinate on the first offset axis. -/
private theorem gather_axis1 (r : Fin R) (a : Fin A) (b : Fin B) :
    ((gatherDims N A B R wf).operandIdx (ix3 r a b) idx 1).val = a.val := by
  show (gatherDims N A B R wf).start (ix3 r a b) idx 1 + (gatherDims N A B R wf).batchCoord (ix3 r a b) 1
      + (gatherDims N A B R wf).offCoord (ix3 r a b) 1 = _
  rw [GatherDims.batchCoord_eq_zero _ _ _ List.not_mem_nil]
  unfold GatherDims.start
  rw [dif_neg (show (1 : Fin 3) ∉ (gatherDims N A B R wf).startIndexMap from
    fun h => absurd (List.mem_singleton.mp h) (show ¬ ((1 : Fin 3) = 0) by decide))]
  simp only [Nat.add_zero, Nat.zero_add]
  rfl

/-- The second entry axis of the operand index: start zero again; it is the second kept axis, so the offset is the
    result's coordinate on the second offset axis. -/
private theorem gather_axis2 (r : Fin R) (a : Fin A) (b : Fin B) :
    ((gatherDims N A B R wf).operandIdx (ix3 r a b) idx 2).val = b.val := by
  show (gatherDims N A B R wf).start (ix3 r a b) idx 2 + (gatherDims N A B R wf).batchCoord (ix3 r a b) 2
      + (gatherDims N A B R wf).offCoord (ix3 r a b) 2 = _
  rw [GatherDims.batchCoord_eq_zero _ _ _ List.not_mem_nil]
  unfold GatherDims.start
  rw [dif_neg (show (2 : Fin 3) ∉ (gatherDims N A B R wf).startIndexMap from
    fun h => absurd (List.mem_singleton.mp h) (show ¬ ((2 : Fin 3) = 0) by decide))]
  simp only [Nat.add_zero, Nat.zero_add]
  rfl

end GatherAxes

/-- A SLAB GATHER READ AT (r, a, b): the operand at slab idx[r, 0] (read signed, clamped into [0, N − 1]) and entry
    (a, b). -/
theorem gather_slabs_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (gatherDims N A B R wf) x idx (ix3 r a b)
      = x (ix3 (⟨min (idx (ix2 r (0 : Fin 1))).toInt.toNat (N - 1), by omega⟩ : Fin N) a b) := by
  unfold Host.gather
  congr 1
  funext k
  refine Fin.ext ?_
  match k with
  | ⟨0, _⟩ => exact gather_axis0 wf idx r a b
  | ⟨1, _⟩ => exact gather_axis1 wf idx r a b
  | ⟨2, _⟩ => exact gather_axis2 wf idx r a b

/-- The dimension numbers of a scatter of whole slabs: operand [N, A, B], scatter indices [R, 1], updates [R, A, B];
    the updates' axes 1 and 2 are the window axes, the operand's axis 0 is inserted and is the one the scatter index
    names. -/
abbrev scatterDims (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An operand axis is among the window axes' targets exactly when it is not an inserted axis. -/
private theorem mem_sKept {s si u : Shape} (d : ScatterDims s si u) (k : Fin s.rank) :
    k ∈ d.sKept ↔ k ∉ d.insertedWindowDims := by
  simp [ScatterDims.sKept, Shape.kept, List.mem_filter, List.mem_finRange]

section ScatterAxes
variable {N A B R w : Nat} (wf : ScatterDims.WF ⟨3, ![N, A, B]⟩ ⟨2, ![R, 1]⟩ ⟨3, ![R, A, B]⟩ [1, 2] [0] [0] 1)
  (idx : IVec ⟨2, ![R, 1]⟩ w)

/-- On the slab axis an update's start is its scatter-index word at [r, 0], read signed. -/
private theorem scatter_start0 (r : Fin R) (a : Fin A) (b : Fin B) :
    (scatterDims N A B R wf).start (ix3 r a b) idx 0 = (idx (ix2 r (0 : Fin 1))).toInt := by
  unfold ScatterDims.start
  rw [dif_pos (show (0 : Fin 3) ∈ (scatterDims N A B R wf).scatterDimsToOperandDims from List.mem_singleton.mpr rfl)]
  have hsi : (scatterDims N A B R wf).siIdx (ix3 r a b) ⟨List.idxOf (0 : Fin 3) (scatterDims N A B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- On the first entry axis the start is zero: the scatter index does not name it. -/
private theorem scatter_start1 (r : Fin R) (a : Fin A) (b : Fin B) : (scatterDims N A B R wf).start (ix3 r a b) idx 1 = 0 := by
  unfold ScatterDims.start
  rw [dif_neg (show (1 : Fin 3) ∉ (scatterDims N A B R wf).scatterDimsToOperandDims from
    fun h => absurd (List.mem_singleton.mp h) (show ¬ ((1 : Fin 3) = 0) by decide))]

/-- On the second entry axis the start is zero as well. -/
private theorem scatter_start2 (r : Fin R) (a : Fin A) (b : Fin B) : (scatterDims N A B R wf).start (ix3 r a b) idx 2 = 0 := by
  unfold ScatterDims.start
  rw [dif_neg (show (2 : Fin 3) ∉ (scatterDims N A B R wf).scatterDimsToOperandDims from
    fun h => absurd (List.mem_singleton.mp h) (show ¬ ((2 : Fin 3) = 0) by decide))]

/-- The slab axis is inserted: no window coordinate there. -/
private theorem scatter_window0 (r : Fin R) (a : Fin A) (b : Fin B) : (scatterDims N A B R wf).window (ix3 r a b) 0 = 0 := by
  unfold ScatterDims.window
  rw [dif_neg (show (0 : Fin 3) ∉ (scatterDims N A B R wf).sKept from
    fun h => (mem_sKept _ _).mp h (List.mem_singleton.mpr rfl))]

/-- The first entry axis is the first kept axis: its window coordinate is the update's coordinate on the first window
    axis. -/
private theorem scatter_window1 (r : Fin R) (a : Fin A) (b : Fin B) : (scatterDims N A B R wf).window (ix3 r a b) 1 = a.val := by
  unfold ScatterDims.window
  rw [dif_pos (show (1 : Fin 3) ∈ (scatterDims N A B R wf).sKept from
    (mem_sKept _ _).mpr fun h => absurd (List.mem_singleton.mp h) (show ¬ ((1 : Fin 3) = 0) by decide))]
  rfl

/-- The second entry axis is the second kept axis: its window coordinate is the update's coordinate on the second
    window axis. -/
private theorem scatter_window2 (r : Fin R) (a : Fin A) (b : Fin B) : (scatterDims N A B R wf).window (ix3 r a b) 2 = b.val := by
  unfold ScatterDims.window
  rw [dif_pos (show (2 : Fin 3) ∈ (scatterDims N A B R wf).sKept from
    (mem_sKept _ _).mpr fun h => absurd (List.mem_singleton.mp h) (show ¬ ((2 : Fin 3) = 0) by decide))]
  rfl

/-- Where the update (r, a, b) lands: at (n, a', b') exactly when its scatter-index word, read signed, is n and
    (a, b) = (a', b'). -/
private theorem scatter_lands_iff (r : Fin R) (a : Fin A) (b : Fin B) (n : Fin N) (a' : Fin A) (b' : Fin B) :
    (scatterDims N A B R wf).resultIdx? (ix3 r a b) idx = some (ix3 n a' b')
      ↔ (idx (ix2 r (0 : Fin 1))).toInt = (n.val : Int) ∧ a = a' ∧ b = b' := by
  unfold ScatterDims.resultIdx?
  constructor
  · intro h
    split at h
    · have hf := Option.some.inj h
      have h0 : ((scatterDims N A B R wf).start (ix3 r a b) idx 0 + ((scatterDims N A B R wf).window (ix3 r a b) 0 : Int)).toNat = n.val :=
        congrArg (fun f : (⟨3, ![N, A, B]⟩ : Shape).Idx => (f 0).val) hf
      have h1 : ((scatterDims N A B R wf).start (ix3 r a b) idx 1 + ((scatterDims N A B R wf).window (ix3 r a b) 1 : Int)).toNat = a'.val :=
        congrArg (fun f : (⟨3, ![N, A, B]⟩ : Shape).Idx => (f 1).val) hf
      have h2 : ((scatterDims N A B R wf).start (ix3 r a b) idx 2 + ((scatterDims N A B R wf).window (ix3 r a b) 2 : Int)).toNat = b'.val :=
        congrArg (fun f : (⟨3, ![N, A, B]⟩ : Shape).Idx => (f 2).val) hf
      rename_i hall
      have hb := (hall 0).1
      rw [scatter_start0, scatter_window0] at h0 hb
      rw [scatter_start1, scatter_window1] at h1
      rw [scatter_start2, scatter_window2] at h2
      refine ⟨by omega, Fin.ext (by omega), Fin.ext (by omega)⟩
    · exact absurd h (by simp)
  · rintro ⟨hv, rfl, rfl⟩
    have hall : ∀ k : Fin 3, 0 ≤ (scatterDims N A B R wf).start (ix3 r a b) idx k + ((scatterDims N A B R wf).window (ix3 r a b) k : Int)
        ∧ (scatterDims N A B R wf).start (ix3 r a b) idx k + ((scatterDims N A B R wf).window (ix3 r a b) k : Int)
          < ((⟨3, ![N, A, B]⟩ : Shape).size k : Int) := by
      intro k
      match k with
      | ⟨0, _⟩ =>
        show 0 ≤ (scatterDims N A B R wf).start (ix3 r a b) idx 0 + ((scatterDims N A B R wf).window (ix3 r a b) 0 : Int)
          ∧ (scatterDims N A B R wf).start (ix3 r a b) idx 0 + ((scatterDims N A B R wf).window (ix3 r a b) 0 : Int) < (N : Int)
        rw [scatter_start0, scatter_window0, hv]
        have := n.isLt
        omega
      | ⟨1, _⟩ =>
        show 0 ≤ (scatterDims N A B R wf).start (ix3 r a b) idx 1 + ((scatterDims N A B R wf).window (ix3 r a b) 1 : Int)
          ∧ (scatterDims N A B R wf).start (ix3 r a b) idx 1 + ((scatterDims N A B R wf).window (ix3 r a b) 1 : Int) < (A : Int)
        rw [scatter_start1, scatter_window1]
        have := a.isLt
        omega
      | ⟨2, _⟩ =>
        show 0 ≤ (scatterDims N A B R wf).start (ix3 r a b) idx 2 + ((scatterDims N A B R wf).window (ix3 r a b) 2 : Int)
          ∧ (scatterDims N A B R wf).start (ix3 r a b) idx 2 + ((scatterDims N A B R wf).window (ix3 r a b) 2 : Int) < (B : Int)
        rw [scatter_start2, scatter_window2]
        have := b.isLt
        omega
    rw [dif_pos hall]
    refine congrArg some (funext fun k => Fin.ext ?_)
    match k with
    | ⟨0, _⟩ =>
      show ((scatterDims N A B R wf).start (ix3 r a b) idx 0 + ((scatterDims N A B R wf).window (ix3 r a b) 0 : Int)).toNat = n.val
      rw [scatter_start0, scatter_window0, hv]
      omega
    | ⟨1, _⟩ =>
      show ((scatterDims N A B R wf).start (ix3 r a b) idx 1 + ((scatterDims N A B R wf).window (ix3 r a b) 1 : Int)).toNat = a.val
      rw [scatter_start1, scatter_window1]
      omega
    | ⟨2, _⟩ =>
      show ((scatterDims N A B R wf).start (ix3 r a b) idx 2 + ((scatterDims N A B R wf).window (ix3 r a b) 2 : Int)).toNat = b.val
      rw [scatter_start2, scatter_window2]
      omega

/-- The exact accumulating slab scatter read at (n, a, b): the sum over the updates that land there keeps, for each
    position r whose word names slab n, the one update entry (r, a, b), and nothing from the other positions. -/
private theorem scatterAdd_slabs_apply (x : (⟨3, ![N, A, B]⟩ : Shape).Idx → EReal)
    (upd : (⟨3, ![R, A, B]⟩ : Shape).Idx → EReal) (n : Fin N) (a : Fin A) (b : Fin B) :
    Ideal.hostScatterAdd (scatterDims N A B R wf) x idx upd (ix3 n a b)
      = x (ix3 n a b) + ∑ r : Fin R, if (idx (ix2 r (0 : Fin 1))).toInt = (n.val : Int) then upd (ix3 r a b) else 0 := by
  unfold Ideal.hostScatterAdd
  refine congrArg (x (ix3 n a b) + ·) ?_
  rw [Finset.sum_filter, sum_idx3]
  refine Finset.sum_congr rfl fun r _ => ?_
  by_cases hv : (idx (ix2 r (0 : Fin 1))).toInt = (n.val : Int)
  · rw [if_pos hv]
    -- of the entries of update slab r only (a, b) lands on (n, a, b)
    rw [Finset.sum_eq_single a]
    · rw [Finset.sum_eq_single b]
      · rw [if_pos ((scatter_lands_iff wf idx r a b n a b).mpr ⟨hv, rfl, rfl⟩)]
      · intro b' _ hne
        rw [if_neg (fun h => hne ((scatter_lands_iff wf idx r a b' n a b).mp h).2.2)]
      · intro h; exact absurd (Finset.mem_univ b) h
    · intro a' _ hne
      refine Finset.sum_eq_zero fun b' _ => ?_
      rw [if_neg (fun h => hne ((scatter_lands_iff wf idx r a' b' n a b).mp h).2.1)]
    · intro h; exact absurd (Finset.mem_univ a) h
  · rw [if_neg hv]
    -- update slab r lands on another slab, or on none
    refine Finset.sum_eq_zero fun a' _ => Finset.sum_eq_zero fun b' _ => ?_
    rw [if_neg (fun h => hv ((scatter_lands_iff wf idx r a' b' n a b).mp h).1)]

end ScatterAxes

/-- THE HOST'S ACCUMULATING SLAB SCATTER READ AT (n, a, b): the operand entry plus the sum, over the scatter positions
    whose word names slab n, of the update entries (r, a, b). -/
theorem hostScatterAdd_slabs_apply {N A B R w : Nat}
    (wf : ScatterDims.WF ⟨3, ![N, A, B]⟩ ⟨2, ![R, 1]⟩ ⟨3, ![R, A, B]⟩ [1, 2] [0] [0] 1)
    (d : ScatterDims ⟨3, ![N, A, B]⟩ ⟨2, ![R, 1]⟩ ⟨3, ![R, A, B]⟩) (hd : d = scatterDims N A B R wf)
    (x : FVec Ideal ⟨3, ![N, A, B]⟩ .f32) (idx : IVec ⟨2, ![R, 1]⟩ w) (upd : FVec Ideal ⟨3, ![R, A, B]⟩ .f32)
    (n : Fin N) (a : Fin A) (b : Fin B) :
    Host.scatterAdd (F := Ideal) d x idx upd (ix3 n a b)
      = x (ix3 n a b) + ∑ r : Fin R, if (idx (ix2 r (0 : Fin 1))).toInt = (n.val : Int) then upd (ix3 r a b) else 0 := by
  subst hd
  unfold Host.scatterAdd
  rw [Ideal.hostScatterAdd_def]
  exact scatterAdd_slabs_apply wf idx x upd n a b

end Cert.LibSlabRows
-- ==== Proof.RefValue.lean ====
/-
  The reference's result as the layer's function of the seven arguments, entry by entry, when every source word names
  a node of the table.
-/
import proofs.«431115_j89910845374839_1_alg».proof.Proof.RefRead
import proofs.«431115_j89910845374839_1_alg».proof.Proof.MsgSpec
import proofs.«431115_j89910845374839_1_alg».proof.Proof.MsgMath
import proofs.«431115_j89910845374839_1_alg».proof.Proof.LibSlabRows

open scoped BigOperators

noncomputable section

namespace Cert.ReferenceIdeal.RefValue

open Idealize.ShloMosaic Idealize.ShloMosaic.ValueIdx
open Cert.ReferenceIdeal Cert.ReferenceIdeal.Gen Cert.ReferenceIdeal.Read

open Cert.MsgSpec Cert.LibSlabRows

/-! ## The index words -/

/-- A word that reads non-negative is not below the zero word, so the moved word is the word itself. -/
private theorem moved_word (w : BitVec 32) (h : 0 ≤ w.toInt) :
    Scalar.select (IntOp.cmpi .slt w 0#32) (IntOp.addi w 50000#32) w = w := by
  have hc : IntOp.cmpi .slt w 0#32 = 0#1 := by
    unfold IntOp.cmpi
    have : w.slt 0#32 = false := by
      simp only [BitVec.slt, BitVec.toInt_zero, decide_eq_false_iff_not, not_lt]; exact h
    simp only [this]; rfl
  rw [hc, select_zero]

/-- Row 1 of the index array, flattened: position e reads the destination word of e. -/
private theorem dst_word (x2 : IVec S2x600000 32) (e : Fin 600000) :
    val_main_v12 (F := Ideal) x2 (ix1 e) = x2 (ix2 (1 : Fin 2) e) := by
  rw [val_main_v12_apply, val_main_v11_apply]
  congr 1
  funext a
  match a with
  | ⟨0, _⟩ => rfl
  | ⟨1, _⟩ => exact Fin.ext (Nat.mod_eq_of_lt e.isLt)

/-- Row 0 of the index array, flattened: position e reads the source word of e. -/
private theorem src_word (x2 : IVec S2x600000 32) (e : Fin 600000) :
    val_main_v10 (F := Ideal) x2 (ix1 e) = x2 (ix2 (0 : Fin 2) e) := by
  rw [val_main_v10_apply, val_main_v9_apply]
  congr 1
  funext a
  match a with
  | ⟨0, _⟩ => rfl
  | ⟨1, _⟩ => exact Fin.ext (Nat.mod_eq_of_lt e.isLt)

/-- The start word of the query gather at position e: the destination word, moved; a word that reads non-negative is not moved. -/
private theorem start_q (x2 : IVec S2x600000 32) (e : Fin 600000)
    (h : 0 ≤ (x2 (ix2 (1 : Fin 2) e)).toInt) :
    val_main_v18 (F := Ideal) x2 (ix2 e (0 : Fin 1)) = x2 (ix2 (1 : Fin 2) e) := by
  rw [val_main_v18_apply]
  have hi : idx_main_v18 (ix2 e (0 : Fin 1)) = ix1 e := by
    funext a
    match a with
    | ⟨0, _⟩ => rfl
  rw [hi, val_main_v17_apply, val_main_v14_apply, val_main_v16_apply, val_main_v13_apply,
    val_main_v15_apply, val_main_c_apply, val_main_c_0_apply, dst_word]
  exact moved_word _ h

/-- The start word of the key gather at position e: the source word, moved; a word that reads non-negative is not moved. -/
private theorem start_k (x2 : IVec S2x600000 32) (e : Fin 600000)
    (h : 0 ≤ (x2 (ix2 (0 : Fin 2) e)).toInt) :
    val_main_v25 (F := Ideal) x2 (ix2 e (0 : Fin 1)) = x2 (ix2 (0 : Fin 2) e) := by
  rw [val_main_v25_apply]
  have hi : idx_main_v25 (ix2 e (0 : Fin 1)) = ix1 e := by
    funext a
    match a with
    | ⟨0, _⟩ => rfl
  rw [hi, val_main_v24_apply, val_main_v21_apply, val_main_v23_apply, val_main_v20_apply,
    val_main_v22_apply, val_main_c_1_apply, val_main_c_2_apply, src_word]
  exact moved_word _ h

/-- The start word of the value gather at position e: the source word, moved; a word that reads non-negative is not moved. -/
private theorem start_v (x2 : IVec S2x600000 32) (e : Fin 600000)
    (h : 0 ≤ (x2 (ix2 (0 : Fin 2) e)).toInt) :
    val_main_v32 (F := Ideal) x2 (ix2 e (0 : Fin 1)) = x2 (ix2 (0 : Fin 2) e) := by
  rw [val_main_v32_apply]
  have hi : idx_main_v32 (ix2 e (0 : Fin 1)) = ix1 e := by
    funext a
    match a with
    | ⟨0, _⟩ => rfl
  rw [hi, val_main_v31_apply, val_main_v28_apply, val_main_v30_apply, val_main_v27_apply,
    val_main_v29_apply, val_main_c_3_apply, val_main_c_4_apply, src_word]
  exact moved_word _ h

/-! ## The three projections by heads, and their gathers -/

/-- The query projection by heads: entry (m, H, k) is row m of the nodes against row (lane H k) of the weight. -/
private theorem proj_q (x0 : FVec Ideal S50000x128 .f32) (x4 : FVec Ideal S128x128 .f32)
    (m : Fin 50000) (H : Fin 8) (k : Fin 16) :
    val_main_v2 (F := Ideal) x0 x4 (ix3 m H k) = proj x0 x4 m (lane H k) := by
  rw [val_main_v2_apply]
  have hi : idx_main_v2 (ix3 m H k) = ix2 m (lane H k) := by
    have hH : H.val < 8 := H.isLt
    have hk : k.val < 16 := k.isLt
    funext a
    match a with
    | ⟨0, _⟩ => exact Fin.ext (by show ((m.val * 8 + H.val) * 16 + k.val) / 128 = m.val; omega)
    | ⟨1, _⟩ => exact Fin.ext (by show ((m.val * 8 + H.val) * 16 + k.val) % 128 = 16 * H.val + k.val; omega)
  rw [hi, val_main_v1_apply]
  unfold proj
  refine Finset.sum_congr rfl fun c _ => ?_
  rw [val_main_v0_apply]
  have hl : lidx_main_v1 (ix2 m (lane H k)) c = ix2 m c := by
    funext a
    match a with
    | ⟨0, _⟩ => rfl
    | ⟨1, _⟩ => rfl
  have hr : idx_main_v0 (ridx_main_v1 (ix2 m (lane H k)) c) = ix2 (lane H k) c := by
    funext a
    match a with
    | ⟨0, _⟩ => rfl
    | ⟨1, _⟩ => rfl
  rw [hl, hr]

/-- The key projection by heads: entry (m, H, k) is row m of the nodes against row (lane H k) of the weight. -/
private theorem proj_k (x0 : FVec Ideal S50000x128 .f32) (x5 : FVec Ideal S128x128 .f32)
    (m : Fin 50000) (H : Fin 8) (k : Fin 16) :
    val_main_v5 (F := Ideal) x0 x5 (ix3 m H k) = proj x0 x5 m (lane H k) := by
  rw [val_main_v5_apply]
  have hi : idx_main_v5 (ix3 m H k) = ix2 m (lane H k) := by
    have hH : H.val < 8 := H.isLt
    have hk : k.val < 16 := k.isLt
    funext a
    match a with
    | ⟨0, _⟩ => exact Fin.ext (by show ((m.val * 8 + H.val) * 16 + k.val) / 128 = m.val; omega)
    | ⟨1, _⟩ => exact Fin.ext (by show ((m.val * 8 + H.val) * 16 + k.val) % 128 = 16 * H.val + k.val; omega)
  rw [hi, val_main_v4_apply]
  unfold proj
  refine Finset.sum_congr rfl fun c _ => ?_
  rw [val_main_v3_apply]
  have hl : lidx_main_v4 (ix2 m (lane H k)) c = ix2 m c := by
    funext a
    match a with
    | ⟨0, _⟩ => rfl
    | ⟨1, _⟩ => rfl
  have hr : idx_main_v3 (ridx_main_v4 (ix2 m (lane H k)) c) = ix2 (lane H k) c := by
    funext a
    match a with
    | ⟨0, _⟩ => rfl
    | ⟨1, _⟩ => rfl
  rw [hl, hr]

/-- The value projection by heads: entry (m, H, k) is row m of the nodes against row (lane H k) of the weight. -/
private theorem proj_v (x0 : FVec Ideal S50000x128 .f32) (x6 : FVec Ideal S128x128 .f32)
    (m : Fin 50000) (H : Fin 8) (k : Fin 16) :
    val_main_v8 (F := Ideal) x0 x6 (ix3 m H k) = proj x0 x6 m (lane H k) := by
  rw [val_main_v8_apply]
  have hi : idx_main_v8 (ix3 m H k) = ix2 m (lane H k) := by
    have hH : H.val < 8 := H.isLt
    have hk : k.val < 16 := k.isLt
    funext a
    match a with
    | ⟨0, _⟩ => exact Fin.ext (by show ((m.val * 8 + H.val) * 16 + k.val) / 128 = m.val; omega)
    | ⟨1, _⟩ => exact Fin.ext (by show ((m.val * 8 + H.val) * 16 + k.val) % 128 = 16 * H.val + k.val; omega)
  rw [hi, val_main_v7_apply]
  unfold proj
  refine Finset.sum_congr rfl fun c _ => ?_
  rw [val_main_v6_apply]
  have hl : lidx_main_v7 (ix2 m (lane H k)) c = ix2 m c := by
    funext a
    match a with
    | ⟨0, _⟩ => rfl
    | ⟨1, _⟩ => rfl
  have hr : idx_main_v6 (ridx_main_v7 (ix2 m (lane H k)) c) = ix2 (lane H k) c := by
    funext a
    match a with
    | ⟨0, _⟩ => rfl
    | ⟨1, _⟩ => rfl
  rw [hl, hr]

/-- The gathered queries at (e, H, k): the query projection of the node the destination word names. -/
private theorem gather_q (x0 : FVec Ideal S50000x128 .f32) (x2 : IVec S2x600000 32) (x4 : FVec Ideal S128x128 .f32)
    (e : Fin 600000) (H : Fin 8) (k : Fin 16) (h : 0 ≤ (x2 (ix2 (1 : Fin 2) e)).toInt) :
    val_main_v19 (F := Ideal) x0 x2 x4 (ix3 e H k) = proj x0 x4 (node (x2 (ix2 (1 : Fin 2) e))) (lane H k) := by
  unfold val_main_v19
  refine (gather_slabs_apply (N := 50000) (A := 8) (B := 16) (R := 600000) (by decide)
    gather_S50000x8x16_S600000x1_S600000x8x16_12_0_n_n_0_1_1816.wf (val_main_v2 (F := Ideal) x0 x4) (val_main_v18 (F := Ideal) x2) e H k).trans ?_
  -- the clamped start word is the node the word names
  have hn : ∀ p, (⟨min (val_main_v18 (F := Ideal) x2 (ix2 e (0 : Fin 1))).toInt.toNat (50000 - 1), p⟩ : Fin 50000)
      = node (x2 (ix2 (1 : Fin 2) e)) := by
    intro p
    apply Fin.ext
    show min _ (50000 - 1) = min _ 49999
    rw [start_q x2 e h]
  rw [hn]
  exact proj_q x0 x4 _ H k

/-- The gathered keys at (e, H, k): the key projection of the node the source word names. -/
private theorem gather_k (x0 : FVec Ideal S50000x128 .f32) (x2 : IVec S2x600000 32) (x5 : FVec Ideal S128x128 .f32)
    (e : Fin 600000) (H : Fin 8) (k : Fin 16) (h : 0 ≤ (x2 (ix2 (0 : Fin 2) e)).toInt) :
    val_main_v26 (F := Ideal) x0 x2 x5 (ix3 e H k) = proj x0 x5 (node (x2 (ix2 (0 : Fin 2) e))) (lane H k) := by
  unfold val_main_v26
  refine (gather_slabs_apply (N := 50000) (A := 8) (B := 16) (R := 600000) (by decide)
    gather_S50000x8x16_S600000x1_S600000x8x16_12_0_n_n_0_1_1816.wf (val_main_v5 (F := Ideal) x0 x5) (val_main_v25 (F := Ideal) x2) e H k).trans ?_
  -- the clamped start word is the node the word names
  have hn : ∀ p, (⟨min (val_main_v25 (F := Ideal) x2 (ix2 e (0 : Fin 1))).toInt.toNat (50000 - 1), p⟩ : Fin 50000)
      = node (x2 (ix2 (0 : Fin 2) e)) := by
    intro p
    apply Fin.ext
    show min _ (50000 - 1) = min _ 49999
    rw [start_k x2 e h]
  rw [hn]
  exact proj_k x0 x5 _ H k

/-- The gathered values at (e, H, k): the value projection of the node the source word names. -/
private theorem gather_v (x0 : FVec Ideal S50000x128 .f32) (x2 : IVec S2x600000 32) (x6 : FVec Ideal S128x128 .f32)
    (e : Fin 600000) (H : Fin 8) (k : Fin 16) (h : 0 ≤ (x2 (ix2 (0 : Fin 2) e)).toInt) :
    val_main_v33 (F := Ideal) x0 x2 x6 (ix3 e H k) = proj x0 x6 (node (x2 (ix2 (0 : Fin 2) e))) (lane H k) := by
  unfold val_main_v33
  refine (gather_slabs_apply (N := 50000) (A := 8) (B := 16) (R := 600000) (by decide)
    gather_S50000x8x16_S600000x1_S600000x8x16_12_0_n_n_0_1_1816.wf (val_main_v8 (F := Ideal) x0 x6) (val_main_v32 (F := Ideal) x2) e H k).trans ?_
  -- the clamped start word is the node the word names
  have hn : ∀ p, (⟨min (val_main_v32 (F := Ideal) x2 (ix2 e (0 : Fin 1))).toInt.toNat (50000 - 1), p⟩ : Fin 50000)
      = node (x2 (ix2 (0 : Fin 2) e)) := by
    intro p
    apply Fin.ext
    show min _ (50000 - 1) = min _ 49999
    rw [start_v x2 e h]
  rw [hn]
  exact proj_v x0 x6 _ H k

/-! ## The score, the message and the result -/

/-- The lane sum of head H at edge e: the zero word plus the sixteen products q · w · k is the score. -/
private theorem score_read (x0 : FVec Ideal S50000x128 .f32) (x1 : FVec Ideal S600000x128 .f32) (x2 : IVec S2x600000 32)
    (x4 x5 : FVec Ideal S128x128 .f32) (e : Fin 600000) (H : Fin 8)
    (hs : 0 ≤ (x2 (ix2 (0 : Fin 2) e)).toInt) (hd : 0 ≤ (x2 (ix2 (1 : Fin 2) e)).toInt) :
    val_main_v37 (F := Ideal) x0 x1 x2 x4 x5 (ix2 e H) = score x0 x1 x2 x4 x5 e H := by
  rw [val_main_v37_apply, val_main_cst_apply, Ideal.ofBits_def, Ideal.ofBits_zero_f32, zero_add]
  unfold score
  refine Finset.sum_congr rfl fun k _ => ?_
  have hi : idx_main_v37 (ix2 e H) k = ix3 e H k := by
    funext a
    match a with
    | ⟨0, _⟩ => rfl
    | ⟨1, _⟩ => rfl
    | ⟨2, _⟩ => rfl
  have hw : idx_main_v34 (ix3 e H k) = ix2 e (lane H k) := by
    have hH : H.val < 8 := H.isLt
    have hk : k.val < 16 := k.isLt
    funext a
    match a with
    | ⟨0, _⟩ => exact Fin.ext (by show ((e.val * 8 + H.val) * 16 + k.val) / 128 = e.val; omega)
    | ⟨1, _⟩ => exact Fin.ext (by show ((e.val * 8 + H.val) * 16 + k.val) % 128 = 16 * H.val + k.val; omega)
  rw [hi, val_main_v36_apply, val_main_v35_apply, gather_q x0 x2 x4 e H k hd, gather_k x0 x2 x5 e H k hs,
    val_main_v34_apply, hw]
  rfl

/-- The update slab at (e, H, j): the score of head H, a quarter of it, times the cutoff of e, times the gathered
    value, is the message of e at feature (lane H j). -/
private theorem msg_read (x0 : FVec Ideal S50000x128 .f32) (x1 : FVec Ideal S600000x128 .f32) (x2 : IVec S2x600000 32)
    (x3 : FVec Ideal S600000x1 .f32) (x4 x5 x6 : FVec Ideal S128x128 .f32) (e : Fin 600000) (H : Fin 8) (j : Fin 16)
    (hs : 0 ≤ (x2 (ix2 (0 : Fin 2) e)).toInt) (hd : 0 ≤ (x2 (ix2 (1 : Fin 2) e)).toInt) :
    val_main_v45 (F := Ideal) x0 x1 x2 x3 x4 x5 x6 (ix3 e H j) = msg x0 x1 x2 x3 x4 x5 x6 e (lane H j) := by
  rw [val_main_v45_apply, val_main_v44_apply, val_main_v43_apply]
  have hi : idx_main_v43 (idx_main_v44 (ix3 e H j)) = ix2 e H := by
    funext a
    match a with
    | ⟨0, _⟩ => rfl
    | ⟨1, _⟩ => rfl
  have hc : idx_main_v41 (ix2 e H) = ix2 e (0 : Fin 1) := by
    funext a
    match a with
    | ⟨0, _⟩ => rfl
    | ⟨1, _⟩ => rfl
  rw [hi, val_main_v42_apply, val_main_v40_apply, val_main_v41_apply, val_main_v39_apply, val_main_v38_apply,
    val_main_cst_5_apply, score_read x0 x1 x2 x4 x5 e H hs hd, gather_v x0 x2 x6 e H j hs, hc,
    Ideal.hostDivf_def, Ideal.hostUnary_sqrt_def, Ideal.ofBits_def, Cert.MsgMath.div_sqrt_sixteen]
  unfold msg
  rw [headOf_lane]
  rfl

/-- THE REFERENCE'S RESULT at (n, d) is the layer's. -/
theorem ref_out (x0 : FVec Ideal S50000x128 .f32) (x1 : FVec Ideal S600000x128 .f32) (x2 : IVec S2x600000 32)
    (x3 : FVec Ideal S600000x1 .f32) (x4 x5 x6 : FVec Ideal S128x128 .f32)
    (hsrc : ∀ e : Fin 600000, 0 ≤ (x2 (ix2 (0 : Fin 2) e)).toInt ∧ (x2 (ix2 (0 : Fin 2) e)).toInt < 50000)
    (n : Fin 50000) (d : Fin 128) :
    val_main_v49 (F := Ideal) x0 x1 x2 x3 x4 x5 x6 (ix2 n d) = Cert.MsgSpec.out x0 x1 x2 x3 x4 x5 x6 n d := by
  rw [val_main_v49_apply]
  -- the flat feature d is lane (laneOf d) of head (headOf d)
  have hi : idx_main_v49 (ix2 n d) = ix3 n (headOf d) (laneOf d) := by
    have hd : d.val < 128 := d.isLt
    funext a
    match a with
    | ⟨0, _⟩ => exact Fin.ext (by show (n.val * 128 + d.val) / 128 = n.val; omega)
    | ⟨1, _⟩ => exact Fin.ext (by show (n.val * 128 + d.val) / 16 % 8 = d.val / 16; omega)
    | ⟨2, _⟩ => exact Fin.ext (by show (n.val * 128 + d.val) % 16 = d.val % 16; omega)
  rw [hi]
  unfold val_main_v48
  refine (hostScatterAdd_slabs_apply (N := 50000) (A := 8) (B := 16) (R := 600000)
    scatter_S50000x8x16_S600000x1_S600000x8x16_12_0_0_1.wf scatter_S50000x8x16_S600000x1_S600000x8x16_12_0_0_1 rfl
    (val_main_v46 (F := Ideal)) (val_main_v47 (F := Ideal) x2) (val_main_v45 (F := Ideal) x0 x1 x2 x3 x4 x5 x6)
    n (headOf d) (laneOf d)).trans ?_
  -- the table scattered into is the zero splat
  rw [val_main_v46_apply, val_main_cst_6_apply, Ideal.ofBits_def, Ideal.ofBits_zero_f32, zero_add]
  unfold Cert.MsgSpec.out
  refine Finset.sum_congr rfl fun e _ => ?_
  -- the scatter word of position e is the destination word of e
  have hw : val_main_v47 (F := Ideal) x2 (ix2 e (0 : Fin 1)) = x2 (ix2 (1 : Fin 2) e) := by
    rw [val_main_v47_apply]
    have hi47 : idx_main_v47 (ix2 e (0 : Fin 1)) = ix1 e := by
      funext a
      match a with
      | ⟨0, _⟩ => rfl
    rw [hi47, dst_word]
  rw [hw]
  by_cases hc : (x2 (ix2 (1 : Fin 2) e)).toInt = (n.val : Int)
  · rw [if_pos hc, if_pos hc,
      msg_read x0 x1 x2 x3 x4 x5 x6 e (headOf d) (laneOf d) (hsrc e).1 (by rw [hc]; exact Int.natCast_nonneg _),
      lane_headOf_laneOf]
  · rw [if_neg hc, if_neg hc]

end Cert.ReferenceIdeal.RefValue

end
-- ==== Proof.HostTerms.lean ====
/-
  The host operations of the kernel's program, named as pure functions of their operands, at the extended reals:
  the fused weight matrix (the three transposed weights side by side), a column block of the fused projection, a row
  of the index array, a table's rows taken at an index vector with the out-of-range positions filled, and the head
  mask.  Each is the printed operation chain, so that a buffer's contents after a stretch of host operations is one
  of these applied to the contents before it.
-/
import proofs.«431115_j89910845374839_1_alg».proof.Proof.Gen.KernelIdeal
import Idealize.ShloMosaic.PureOps.Ideal

noncomputable section

namespace Cert.KernelIdeal.HostTerms

open Idealize.ShloMosaic Cert.KernelIdeal Cert.KernelIdeal.Gen

/-- The three weight matrices transposed and laid side by side: a 128 × 384 matrix. -/
def wcat (Wq Wk Wv : FVec Ideal S128x128 .f32) : FVec Ideal S128x384 .f32 :=
  concatenate S128x384 1 [⟨S128x128, transpose S128x128 [1, 0] Wq transposes_S128x128_S128x128_1_0⟩,
    ⟨S128x128, transpose S128x128 [1, 0] Wk transposes_S128x128_S128x128_1_0⟩,
    ⟨S128x128, transpose S128x128 [1, 0] Wv transposes_S128x128_S128x128_1_0⟩] concatenates_S128x128_S128x128_S128x128_S128x384_d1

/-- Columns 0–127 of the fused projection (the queries). -/
def cols0 (Y : FVec Ideal S50000x384 .f32) : FVec Ideal S50000x128 .f32 := extractStridedSlice S50000x128 ![0, 0] Y slices_S50000x384_S50000x128_0_0
/-- Columns 128–255 (the keys). -/
def cols1 (Y : FVec Ideal S50000x384 .f32) : FVec Ideal S50000x128 .f32 := extractStridedSlice S50000x128 ![0, 128] Y slices_S50000x384_S50000x128_0_128
/-- Columns 256–383 (the values). -/
def cols2 (Y : FVec Ideal S50000x384 .f32) : FVec Ideal S50000x128 .f32 := extractStridedSlice S50000x128 ![0, 256] Y slices_S50000x384_S50000x128_0_256

/-- Row 0 of the index array (the source nodes) as a vector. -/
def idxRow0 (ei : IVec S2x600000 32) : IVec S600000 32 :=
  shapeCast S600000 (extractStridedSlice S1x600000 ![0, 0] ei slices_S2x600000_S1x600000_0_0) shapeCasts_S1x600000_S600000
/-- Row 1 of the index array (the destination nodes) as a vector. -/
def idxRow1 (ei : IVec S2x600000 32) : IVec S600000 32 :=
  shapeCast S600000 (extractStridedSlice S1x600000 ![1, 0] ei slices_S2x600000_S1x600000_1_0) shapeCasts_S1x600000_S600000

/-- An index vector with its negative entries moved up by the table's height, as a column. -/
def wrapIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Which positions of the moved index column lie inside the table. -/
def inRange (I : IVec S600000x1 32) : IVec S600000 1 :=
  Host.reduce IntOp.andi
    (andi (cmpi .sge I (broadcastInDim S600000x1 ![] bcast_S_S600000x1 (constantI S_ 32 0#32)))
      (cmpi .sle I (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- The rows of a table taken at an index vector; a position outside the table reads the fill word. -/
def takeRows (X : FVec Ideal S50000x128 .f32) (idx : IVec S600000 32) : FVec Ideal S600000x128 .f32 :=
  select (broadcastInDim S600000x128 ![0] bcast_S600000_S600000x128_0 (inRange (wrapIdx idx)))
    (Host.gather gather_S50000x128_S600000x1_S600000x128_1_0_n_n_0_1_1128 X (wrapIdx idx))
    (broadcastInDim S600000x128 ![] bcast_S_S600000x128 (constant (F := Ideal) S_ .f32 0x7FC00000#32))

/-- The head mask as the program's literal table. -/
def maskTab : FVec Ideal S128x8 .f32 := fun i => FloatOps.ofBits .f32 (lit0 (S128x8.rowMajor i))
/-- Its transpose. -/
def maskTabT : FVec Ideal S8x128 .f32 := transpose S8x128 [1, 0] maskTab transposes_S128x8_S8x128_1_0

/-- The accumulating row scatter of the messages into the zero table. -/
def scatterRows (idx : IVec S600000 32) (msgs : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 idx) msgs

end Cert.KernelIdeal.HostTerms

end
-- ==== Proof.KernelPlumb.lean ====
/-
  The kernel program's buffers at its segment boundaries, as the named host functions of earlier buffers and of the
  launch memory: the fused weights and the features at the projection region's entry; the fused projection at its
  exit; the three gathered arrays, the edge weights, the cutoff, the mask and its transpose at the edge region's
  entry; the message array at its exit; and the result as the accumulating row scatter of the messages.
-/
import proofs.«431115_j89910845374839_1_alg».proof.Proof.IdealRun
import proofs.«431115_j89910845374839_1_alg».proof.Proof.HostTerms
import Idealize.ShloMosaic.Lib.StableHlo.Run

noncomputable section

namespace Cert.KernelIdeal.Plumb

open Idealize.ShloMosaic Idealize.ShloMosaic.TcCoe Idealize.SL.Sem Idealize.ShloMosaic.StableHlo
open Cert.KernelIdeal Cert.KernelIdeal.Gen Cert.KernelIdeal.GenP Cert.KernelIdeal.HostTerms

variable (m : (ℓ : Loc nD τ sig) → Buf (Elt Ideal) ℓ) (c : Dev nD)

/-- The seven arguments as the launch memory holds them, each at its literal type. -/
abbrev xA : FVec Ideal S50000x128 .f32 := m ((c : Thread nD τ).loc main_arg0)
abbrev wA : FVec Ideal S600000x128 .f32 := m ((c : Thread nD τ).loc main_arg1)
abbrev eiA : IVec S2x600000 32 := m ((c : Thread nD τ).loc main_arg2)
abbrev cutA : FVec Ideal S600000x1 .f32 := m ((c : Thread nD τ).loc main_arg3)
abbrev WqA : FVec Ideal S128x128 .f32 := m ((c : Thread nD τ).loc main_arg4)
abbrev WkA : FVec Ideal S128x128 .f32 := m ((c : Thread nD τ).loc main_arg5)
abbrev WvA : FVec Ideal S128x128 .f32 := m ((c : Thread nD τ).loc main_arg6)
/-- The fused projection's array after the projection region. -/
abbrev qkvA : FVec Ideal S50000x384 .f32 := W2 m c main_v4

/-! ## The projection region's entry -/

theorem entry0_x : (VR1 m c main_arg0 : FVec Ideal S50000x128 .f32) = xA m c := by
  dsimp only [VR1, W1, hostOps0]; after_results
theorem entry0_w : (VR1 m c main_v3 : FVec Ideal S128x384 .f32) = wcat (WqA m c) (WkA m c) (WvA m c) := by
  dsimp only [VR1, W1, hostOps0]; after_results; rfl

/-! ## Its exit -/

theorem exit0_qkv : qkvA m c = (dat0 (F := Ideal) (VR1 m) c).arrAt 2 cfg0.N := W2_arr m c 2
theorem exit0_ei : (W2 m c main_arg2 : IVec S2x600000 32) = eiA m c :=
  (W2_of_ne m c main_arg2 (by decide)).trans ((StableHlo.after_of_writes_sub hostOps0 _ hostOps0_writes (by decide)).trans rfl)
theorem exit0_w : (W2 m c main_arg1 : FVec Ideal S600000x128 .f32) = wA m c :=
  (W2_of_ne m c main_arg1 (by decide)).trans ((StableHlo.after_of_writes_sub hostOps0 _ hostOps0_writes (by decide)).trans rfl)
theorem exit0_cut : (W2 m c main_arg3 : FVec Ideal S600000x1 .f32) = cutA m c :=
  (W2_of_ne m c main_arg3 (by decide)).trans ((StableHlo.after_of_writes_sub hostOps0 _ hostOps0_writes (by decide)).trans rfl)
theorem exit0_mask : (W2 m c main_cst : FVec Ideal S128x8 .f32) = maskTab :=
  (W2_of_ne m c main_cst (by decide)).trans (by dsimp only [W1, hostOps0]; after_results; rfl)

/-! ## The edge region's entry -/

set_option maxHeartbeats 1000000 in
theorem entry1_q : (VR7 m c main_v12 : FVec Ideal S600000x128 .f32) = takeRows (cols0 (qkvA m c)) (idxRow1 (W2 m c main_arg2)) := by
  dsimp only [VR7, W7, W6, W5, W4, W3, hostOps1_4, hostOps1_3, hostOps1_2, hostOps1_1, hostOps1]
  after_results_simp
  simp only [TRef.toBuf, TRef.ofBuf, cast_eq]
  rfl
set_option maxHeartbeats 1000000 in
theorem entry1_k : (VR7 m c main_v13 : FVec Ideal S600000x128 .f32) = takeRows (cols1 (qkvA m c)) (idxRow0 (W2 m c main_arg2)) := by
  dsimp only [VR7, W7, W6, W5, W4, W3, hostOps1_4, hostOps1_3, hostOps1_2, hostOps1_1, hostOps1]
  after_results_simp
  simp only [TRef.toBuf, TRef.ofBuf, cast_eq]
  rfl
set_option maxHeartbeats 1000000 in
theorem entry1_v : (VR7 m c main_v14 : FVec Ideal S600000x128 .f32) = takeRows (cols2 (qkvA m c)) (idxRow0 (W2 m c main_arg2)) := by
  dsimp only [VR7, W7, W6, W5, W4, W3, hostOps1_4, hostOps1_3, hostOps1_2, hostOps1_1, hostOps1]
  after_results_simp
  simp only [TRef.toBuf, TRef.ofBuf, cast_eq]
  rfl
set_option maxHeartbeats 1000000 in
theorem entry1_w : (VR7 m c main_arg1 : FVec Ideal S600000x128 .f32) = W2 m c main_arg1 := by
  dsimp only [VR7, W7, W6, W5, W4, W3, hostOps1_4, hostOps1_3, hostOps1_2, hostOps1_1, hostOps1]
  after_results_simp
set_option maxHeartbeats 1000000 in
theorem entry1_cut : (VR7 m c main_arg3 : FVec Ideal S600000x1 .f32) = W2 m c main_arg3 := by
  dsimp only [VR7, W7, W6, W5, W4, W3, hostOps1_4, hostOps1_3, hostOps1_2, hostOps1_1, hostOps1]
  after_results_simp
set_option maxHeartbeats 1000000 in
theorem entry1_mask : (VR7 m c main_cst : FVec Ideal S128x8 .f32) = W2 m c main_cst := by
  dsimp only [VR7, W7, W6, W5, W4, W3, hostOps1_4, hostOps1_3, hostOps1_2, hostOps1_1, hostOps1]
  after_results_simp
set_option maxHeartbeats 1000000 in
theorem entry1_maskT : (VR7 m c main_v15 : FVec Ideal S8x128 .f32) = transpose S8x128 [1, 0] (W2 m c main_cst : FVec Ideal S128x8 .f32) transposes_S128x8_S8x128_1_0 := by
  dsimp only [VR7, W7, W6, W5, W4, W3, hostOps1_4, hostOps1_3, hostOps1_2, hostOps1_1, hostOps1]
  after_results_simp
set_option maxHeartbeats 1000000 in
theorem entry1_dst : (W7 m c main_v11 : IVec S600000 32) = idxRow1 (W2 m c main_arg2) := by
  dsimp only [W7, W6, W5, W4, W3, hostOps1_4, hostOps1_3, hostOps1_2, hostOps1_1, hostOps1]
  after_results_simp
  try rfl

/-! ## Its exit, and the result -/

theorem exit1_msgs : (W8 m c main_v16 : FVec Ideal S600000x128 .f32) = (dat1 (F := Ideal) (VR7 m) c).arrAt 7 cfg1.N := W8_arr m c 7
theorem exit1_dst : (W8 m c main_v11 : IVec S600000 32) = W7 m c main_v11 := W8_of_ne m c main_v11 (by decide)
theorem result_eq : (W9 m c main_v19 : FVec Ideal S50000x128 .f32) = scatterRows (W8 m c main_v11) (W8 m c main_v16) := by
  dsimp only [W9, hostOps2]; after_results; rfl

end Cert.KernelIdeal.Plumb

end
-- ==== Proof.ProjValue.lean ====
/-
  What the projection region leaves in its output array: entry (n, j) of the fused projection is the inner product of
  row n of the node features with column j of the fused weight matrix, as the region finds the two arrays.
-/
import proofs.«431115_j89910845374839_1_alg».proof.Proof.IdealRegions
import Idealize.ShloMosaic.Lib.Pipeline.Value
import Idealize.ShloMosaic.Lib.ValueIdx
import Idealize.ShloMosaic.PureOps.Ideal.Laws

open scoped BigOperators

noncomputable section

namespace Cert.KernelIdeal.ProjValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-! ## The block product at an entry -/

/-- The left operand's row coordinate at output entry i is i's row. -/
private theorem lhs_proj_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
/-- The left operand's column coordinate is the contraction index. -/
private theorem lhs_proj_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
/-- The right operand's row coordinate is the contraction index. -/
private theorem rhs_proj_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
/-- The right operand's column coordinate at output entry i is i's column. -/
private theorem rhs_proj_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The body's product of a feature block with the weight matrix, at (p, q): the inner product of row p of the block
    with column q of the weights (the accumulator it starts from is zero). -/
private theorem blockProduct_apply (x0 : Vec Ideal S5000x128 .f32) (x1 : Vec Ideal S128x384 .f32) (p : Fin 5000) (q : Fin 384) :
    k0_pay1 (F := Ideal) x0 x1 (ix2 p q) = ∑ k : Fin 128, x0 (ix2 p k) * x1 (ix2 k q) := by
  unfold k0_pay1
  rw [shapeCast_self]
  refine (Ideal.matmul_constant_zero_apply dot_S5000x128_S128x384_S5000x384_1_0_0_1_n_n none x0 x1 (ix2 p q)).trans ?_
  rw [← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  have el : dot_S5000x128_S128x384_S5000x384_1_0_0_1_n_n.lhsIdx (ix2 p q) ((contrEquiv1 dot_S5000x128_S128x384_S5000x384_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S5000x128_S128x384_S5000x384_1_0_0_1_n_n.rhsIdx (ix2 p q) ((contrEquiv1 dot_S5000x128_S128x384_S5000x384_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ## From the row blocks to the array -/

private theorem zero_offsets : (![0, 0] : Fin 2 → Nat) = fun _ => 0 := funext fun a => by fin_cases a <;> rfl

/-- A block product's entry (p, q) when row p of the feature block is row n of an array X and column q of the weight
    block is column j of an array W: the inner product of row n of X with column j of W. -/
private theorem blockProduct_of_rows (x0 : Vec Ideal S5000x128 .f32) (x1 : Vec Ideal S128x384 .f32)
    (X : FVec Ideal S50000x128 .f32) (W : FVec Ideal S128x384 .f32) (p : Fin 5000) (q : Fin 384) (n : Fin 50000) (j : Fin 384)
    (h0 : ∀ k : Fin 128, x0 (ix2 p k) = X (ix2 n k)) (h1 : ∀ k : Fin 128, x1 (ix2 k q) = W (ix2 k j)) :
    k0_pay1 (F := Ideal) x0 x1 (ix2 p q) = ∑ k : Fin 128, X (ix2 n k) * W (ix2 k j) := by
  rw [blockProduct_apply]
  exact Finset.sum_congr rfl fun k _ => by rw [h0 k, h1 k]

/-- The block indices over the ten points: the feature block and the output block are row block t, every column
    index is 0, and the weight block is the whole matrix. -/
private theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- The node features, the fused weights and the fused projection's array after the region, each at its literal type. -/
abbrev xArr (c : Dev nD) : FVec Ideal S50000x128 .f32 := V c main_arg0
abbrev wArr (c : Dev nD) : FVec Ideal S128x384 .f32 := V c main_v3
abbrev yArr (c : Dev nD) : FVec Ideal S50000x384 .f32 := (dat0 (F := Ideal) V c).arrAt 2 cfg0.N

/-- The whole fused projection as one function of the two arrays as the region finds them: entry i is the inner
    product of row (i 0) of the features with column (i 1) of the fused weights. -/
private abbrev projFn (c : Dev nD) : FVec Ideal S50000x384 .f32 := fun i =>
  ∑ k : Fin 128, xArr V c (ix2 (i 0) k) * wArr V c (ix2 k (i 1))

/-- What point t writes back is row block t of the whole projection. -/
private theorem flushed_block (c : Dev nD) (t : Fin cfg0.N) :
    (dat0 (F := Ideal) V c).flushed 2 t = ((cfg0.win 2).blk t).view.read (Elt Ideal) (projFn V c) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x384) zero_offsets]
  obtain ⟨e0, e1, e2, e3, e4, e5⟩ := block_indices t
  funext y
  have hy : (y : S5000x384.Idx) = ix2 (y 0 : Fin 5000) (y 1 : Fin 384) := eq_ix2 (n0 := 5000) (n1 := 384) y
  show k0_pay1 (F := Ideal) (iblk0 V c 0 t) (iblk0 V c 1 t) y = projFn V c (((cfg0.win 2).blk t).view.emb y)
  refine (congrArg (k0_pay1 (F := Ideal) (iblk0 V c 0 t) (iblk0 V c 1 t)) hy).trans ?_
  refine blockProduct_of_rows (iblk0 V c 0 t) (iblk0 V c 1 t) (xArr V c) (wArr V c) (y 0) (y 1)
    (((cfg0.win 2).blk t).view.emb y 0) (((cfg0.win 2).blk t).view.emb y 1) (fun k => ?_) (fun k => ?_)
  · -- row (y 0) of the feature block is row 5000 t + (y 0) of the features
    show V c main_arg0 (((cfg0.win 0).blk t).view.emb (ix2 (y 0 : Fin 5000) k)) = V c main_arg0 (ix2 (((cfg0.win 2).blk t).view.emb y 0 : Fin 50000) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; rw [e0, e4]
    | ⟨1, _⟩ => show win0_0.index t (1 : Fin 2) * 128 + 1 * k.val = k.val; rw [e1]; omega
  · -- the weight block is the whole matrix, and the output block spans every column
    show V c main_v3 (((cfg0.win 1).blk t).view.emb (ix2 k (y 1 : Fin 384))) = V c main_v3 (ix2 k (((cfg0.win 2).blk t).view.emb y 1 : Fin 384))
    refine congrArg (V c main_v3) (funext fun a => Fin.ext ?_)
    match a with
    | ⟨0, _⟩ => show win0_1.index t (0 : Fin 2) * 128 + 1 * k.val = k.val; rw [e2]; omega
    | ⟨1, _⟩ => show win0_1.index t (1 : Fin 2) * 384 + 1 * (y 1).val = win0_2.index t (1 : Fin 2) * 384 + 1 * (y 1).val; rw [e3, e5]

/-- An entry is in point t's block iff each coordinate is in the block's range on its axis. -/
private theorem mem_block (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v4).slice (win0_2.rect t)).set ↔ _
  rw [View.set_slice_whole, Rect.mem_set_unit]
  exact Iff.rfl

/-- Row r lies in row block r / 5000, and a block spans every column: the ten blocks cover the array. -/
private theorem blocks_cover (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 384 ≤ (i 1).val ∧ (i 1).val < win0_2.index t (1 : Fin 2) * 384 + 384; rw [e5]; omega

/-- The array after the region is the whole projection. -/
private theorem yArr_eq (c : Dev nD) : yArr V c = projFn V c :=
  (dat0 (F := Ideal) V c).arrAt_eq_of_cover 2 (projFn V c) (fun t _ => flushed_block V c t) blocks_cover

/-- THE FUSED PROJECTION after the region, at (n, j): the inner product of row n of the features with column j of
    the fused weights. -/
theorem proj_arr (c : Dev nD) (n : Fin 50000) (j : Fin 384) :
    yArr V c (ix2 n j) = ∑ k : Fin 128, xArr V c (ix2 n k) * wArr V c (ix2 k j) :=
  congrFun (yArr_eq V c) (ix2 n j)

end Cert.KernelIdeal.ProjValue

end
-- ==== Proof.EdgeValue.lean ====
/-
  What the edge region leaves in its output array: row e of the messages, from row e of the gathered queries, keys and
  values, of the edge weights and of the cutoff, and from the two mask matrices, as the region finds the seven arrays.
-/
import proofs.«431115_j89910845374839_1_alg».proof.Proof.IdealRegions
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.EdgeValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-! ## The two contractions of the body, read at an entry -/

/-- The score contraction (rows of 128 features against the 128 × 8 head mask): the left operand's index keeps the
    output's row … -/
private theorem lhs_score_0 (i : S6000x8.Idx) (q : dot_S6000x128_S128x8_S6000x8_1_0_0_1_n_n.contr.Idx) :
    (dot_S6000x128_S128x8_S6000x8_1_0_0_1_n_n.lhsIdx i q 0).val = (i 0).val := by
  unfold DotDims.lhsIdx
  rw [dif_neg (show ¬(0 : Fin S6000x128.rank) ∈ dot_S6000x128_S128x8_S6000x8_1_0_0_1_n_n.lhsBatch by decide), dif_pos (show (0 : Fin S6000x128.rank) ∈ dot_S6000x128_S128x8_S6000x8_1_0_0_1_n_n.lhsNonContracting by decide)]
  rfl
/-- … and takes the contracted feature as its column; -/
private theorem lhs_score_1 (i : S6000x8.Idx) (q : dot_S6000x128_S128x8_S6000x8_1_0_0_1_n_n.contr.Idx) :
    (dot_S6000x128_S128x8_S6000x8_1_0_0_1_n_n.lhsIdx i q 1).val = (q ⟨0, by decide⟩).val :=
  dot_S6000x128_S128x8_S6000x8_1_0_0_1_n_n.lhsIdx_val_of_single rfl i q
/-- the right operand's index takes the contracted feature as its row … -/
private theorem rhs_score_0 (i : S6000x8.Idx) (q : dot_S6000x128_S128x8_S6000x8_1_0_0_1_n_n.contr.Idx) :
    (dot_S6000x128_S128x8_S6000x8_1_0_0_1_n_n.rhsIdx i q 0).val = (q ⟨0, by decide⟩).val :=
  dot_S6000x128_S128x8_S6000x8_1_0_0_1_n_n.rhsIdx_val_of_single rfl i q
/-- … and keeps the output's head column. -/
private theorem rhs_score_1 (i : S6000x8.Idx) (q : dot_S6000x128_S128x8_S6000x8_1_0_0_1_n_n.contr.Idx) :
    (dot_S6000x128_S128x8_S6000x8_1_0_0_1_n_n.rhsIdx i q 1).val = (i 1).val := by
  unfold DotDims.rhsIdx
  rw [dif_neg (show ¬(1 : Fin S128x8.rank) ∈ dot_S6000x128_S128x8_S6000x8_1_0_0_1_n_n.rhsBatch by decide), dif_pos (show (1 : Fin S128x8.rank) ∈ dot_S6000x128_S128x8_S6000x8_1_0_0_1_n_n.rhsNonContracting by decide)]
  rfl

/-- The score contraction into the zero block, at row p and head h: the sum over the 128 features of the left
    operand's (p, k) times the mask's (k, h). -/
private theorem score_apply (l : FVec Ideal S6000x128 .f32) (r : FVec Ideal S128x8 .f32) (p : Fin 6000) (h : Fin 8) :
    matmul dot_S6000x128_S128x8_S6000x8_1_0_0_1_n_n none l r (constant (F := Ideal) S6000x8 .f32 0x00000000#32) (ix2 p h)
      = ∑ k : Fin 128, l (ix2 p k) * r (ix2 k h) := by
  simp only [matmul]
  rw [Ideal.matmul_constant_zero_apply, ← Equiv.sum_comp (contrEquiv1 dot_S6000x128_S128x8_S6000x8_1_0_0_1_n_n 128 rfl rfl).symm]
  refine Finset.sum_congr rfl fun k _ => ?_
  have hk := contrEquiv1_symm_val dot_S6000x128_S128x8_S6000x8_1_0_0_1_n_n 128 rfl rfl k
  have el : dot_S6000x128_S128x8_S6000x8_1_0_0_1_n_n.lhsIdx (ix2 p h) ((contrEquiv1 dot_S6000x128_S128x8_S6000x8_1_0_0_1_n_n 128 rfl rfl).symm k) = ix2 p k := funext fun a => Fin.ext (by
    match a with
    | ⟨0, _⟩ => exact lhs_score_0 _ _
    | ⟨1, _⟩ => exact (lhs_score_1 _ _).trans hk)
  have er : dot_S6000x128_S128x8_S6000x8_1_0_0_1_n_n.rhsIdx (ix2 p h) ((contrEquiv1 dot_S6000x128_S128x8_S6000x8_1_0_0_1_n_n 128 rfl rfl).symm k) = ix2 k h := funext fun a => Fin.ext (by
    match a with
    | ⟨0, _⟩ => exact (rhs_score_0 _ _).trans hk
    | ⟨1, _⟩ => exact rhs_score_1 _ _)
  rw [el, er]

/-- The spreading contraction (rows of 8 heads against the 8 × 128 transposed mask): the left operand's index keeps
    the output's row … -/
private theorem lhs_spread_0 (i : S6000x128.Idx) (q : dot_S6000x8_S8x128_S6000x128_1_0_0_1_n_n.contr.Idx) :
    (dot_S6000x8_S8x128_S6000x128_1_0_0_1_n_n.lhsIdx i q 0).val = (i 0).val := by
  unfold DotDims.lhsIdx
  rw [dif_neg (show ¬(0 : Fin S6000x8.rank) ∈ dot_S6000x8_S8x128_S6000x128_1_0_0_1_n_n.lhsBatch by decide), dif_pos (show (0 : Fin S6000x8.rank) ∈ dot_S6000x8_S8x128_S6000x128_1_0_0_1_n_n.lhsNonContracting by decide)]
  rfl
/-- … and takes the contracted head as its column; -/
private theorem lhs_spread_1 (i : S6000x128.Idx) (q : dot_S6000x8_S8x128_S6000x128_1_0_0_1_n_n.contr.Idx) :
    (dot_S6000x8_S8x128_S6000x128_1_0_0_1_n_n.lhsIdx i q 1).val = (q ⟨0, by decide⟩).val :=
  dot_S6000x8_S8x128_S6000x128_1_0_0_1_n_n.lhsIdx_val_of_single rfl i q
/-- the right operand's index takes the contracted head as its row … -/
private theorem rhs_spread_0 (i : S6000x128.Idx) (q : dot_S6000x8_S8x128_S6000x128_1_0_0_1_n_n.contr.Idx) :
    (dot_S6000x8_S8x128_S6000x128_1_0_0_1_n_n.rhsIdx i q 0).val = (q ⟨0, by decide⟩).val :=
  dot_S6000x8_S8x128_S6000x128_1_0_0_1_n_n.rhsIdx_val_of_single rfl i q
/-- … and keeps the output's feature column. -/
private theorem rhs_spread_1 (i : S6000x128.Idx) (q : dot_S6000x8_S8x128_S6000x128_1_0_0_1_n_n.contr.Idx) :
    (dot_S6000x8_S8x128_S6000x128_1_0_0_1_n_n.rhsIdx i q 1).val = (i 1).val := by
  unfold DotDims.rhsIdx
  rw [dif_neg (show ¬(1 : Fin S8x128.rank) ∈ dot_S6000x8_S8x128_S6000x128_1_0_0_1_n_n.rhsBatch by decide), dif_pos (show (1 : Fin S8x128.rank) ∈ dot_S6000x8_S8x128_S6000x128_1_0_0_1_n_n.rhsNonContracting by decide)]
  rfl

/-- The spreading contraction into the zero block, at row p and feature q: the sum over the 8 heads of the left
    operand's (p, h) times the transposed mask's (h, q). -/
private theorem spread_apply (l : FVec Ideal S6000x8 .f32) (r : FVec Ideal S8x128 .f32) (p : Fin 6000) (q : Fin 128) :
    matmul dot_S6000x8_S8x128_S6000x128_1_0_0_1_n_n none l r (constant (F := Ideal) S6000x128 .f32 0x00000000#32) (ix2 p q)
      = ∑ h : Fin 8, l (ix2 p h) * r (ix2 h q) := by
  simp only [matmul]
  rw [Ideal.matmul_constant_zero_apply, ← Equiv.sum_comp (contrEquiv1 dot_S6000x8_S8x128_S6000x128_1_0_0_1_n_n 8 rfl rfl).symm]
  refine Finset.sum_congr rfl fun k _ => ?_
  have hk := contrEquiv1_symm_val dot_S6000x8_S8x128_S6000x128_1_0_0_1_n_n 8 rfl rfl k
  have el : dot_S6000x8_S8x128_S6000x128_1_0_0_1_n_n.lhsIdx (ix2 p q) ((contrEquiv1 dot_S6000x8_S8x128_S6000x128_1_0_0_1_n_n 8 rfl rfl).symm k) = ix2 p k := funext fun a => Fin.ext (by
    match a with
    | ⟨0, _⟩ => exact lhs_spread_0 _ _
    | ⟨1, _⟩ => exact (lhs_spread_1 _ _).trans hk)
  have er : dot_S6000x8_S8x128_S6000x128_1_0_0_1_n_n.rhsIdx (ix2 p q) ((contrEquiv1 dot_S6000x8_S8x128_S6000x128_1_0_0_1_n_n 8 rfl rfl).symm k) = ix2 k q := funext fun a => Fin.ext (by
    match a with
    | ⟨0, _⟩ => exact (rhs_spread_0 _ _).trans hk
    | ⟨1, _⟩ => exact rhs_spread_1 _ _)
  rw [el, er]

/-- The cutoff column spread over the eight heads reads, at (p, h), the column's entry of row p. -/
private theorem cutoff_spread_apply {α : Type} (v : S6000x1.Idx → α) (hb : S6000x1.Broadcasts S6000x8) (p : Fin 6000) (h : Fin 8) :
    broadcastTo S6000x8 v hb (ix2 p h) = v (ix2 p (0 : Fin 1)) := by
  refine broadcastTo_apply v hb (ix2 p h) (ix2 p (0 : Fin 1)) fun ax => ?_
  match ax with
  | ⟨0, _⟩ => rfl
  | ⟨1, _⟩ => rfl

/-! ## The body's arithmetic at an entry -/

/-- The body's stored block at row p and feature q: the per-head score of the row (query · weight · key summed
    against the mask's column h), scaled by the quarter word and the row's cutoff, spread back over the features by
    the transposed mask, times the value entry. -/
private theorem payload_apply (x0 x1 x2 x3 : FVec Ideal S6000x128 .f32) (x4 : FVec Ideal S6000x1 .f32) (x5 : FVec Ideal S128x8 .f32)
    (x6 : FVec Ideal S8x128 .f32) (p : Fin 6000) (q : Fin 128) :
    k1_pay1 (F := Ideal) x0 x1 x2 x3 x4 x5 x6 (ix2 p q)
      = (∑ h : Fin 8, ((∑ d' : Fin 128, (x0 (ix2 p d') * x3 (ix2 p d') * x1 (ix2 p d')) * x5 (ix2 d' h))
            * Ideal.ofBits .f32 0x3E800000#32 * x4 (ix2 p (0 : Fin 1))) * x6 (ix2 h q)) * x2 (ix2 p q) := by
  unfold k1_pay1
  simp only [shapeCast_self]
  rw [mulf_apply, spread_apply]
  refine congrArg (· * x2 (ix2 p q)) (Finset.sum_congr rfl fun h _ => ?_)
  rw [mulf_apply, mulf_apply, cutoff_spread_apply, broadcast_apply, score_apply]
  refine congrArg (fun s => s * Ideal.ofBits .f32 0x3E800000#32 * x4 (ix2 p (0 : Fin 1)) * x6 (ix2 h q)) (Finset.sum_congr rfl fun d' _ => ?_)
  rw [mulf_apply, mulf_apply]

variable (V : (c : Dev nD) → (b : Ref sig .tc) → Buf (Elt Ideal) ((c : Thread nD τ).loc b))

/-- The seven arrays the region reads and the message array it leaves, each at its literal type: the gathered query,
    key and value rows, the edge weights, the cutoff column, the head mask and its transpose. -/
abbrev qiArr (c : Dev nD) : FVec Ideal S600000x128 .f32 := V c main_v12
abbrev kjArr (c : Dev nD) : FVec Ideal S600000x128 .f32 := V c main_v13
abbrev vjArr (c : Dev nD) : FVec Ideal S600000x128 .f32 := V c main_v14
abbrev ewArr (c : Dev nD) : FVec Ideal S600000x128 .f32 := V c main_arg1
abbrev cutArr (c : Dev nD) : FVec Ideal S600000x1 .f32 := V c main_arg3
abbrev maskArr (c : Dev nD) : FVec Ideal S128x8 .f32 := V c main_cst
abbrev maskTArr (c : Dev nD) : FVec Ideal S8x128 .f32 := V c main_v15
abbrev msgArr (c : Dev nD) : FVec Ideal S600000x128 .f32 := (dat1 (F := Ideal) V c).arrAt 7 cfg1.N

/-! ## The message array as one function of the seven arrays -/

/-- The message entry of edge e and feature d, from row e of the row arrays and from the two masks. -/
def msgAt (c : Dev nD) (e : Fin 600000) (d : Fin 128) : EReal :=
  (∑ h : Fin 8,
      ((∑ d' : Fin 128, (qiArr V c (ix2 e d') * ewArr V c (ix2 e d') * kjArr V c (ix2 e d')) * maskArr V c (ix2 d' h))
        * Ideal.ofBits .f32 0x3E800000#32 * cutArr V c (ix2 e (0 : Fin 1)))
      * maskTArr V c (ix2 h d))
    * vjArr V c (ix2 e d)

/-- The whole message array: at an index, the message entry of its row and column. -/
def msgFn (c : Dev nD) : S600000x128.Idx → EReal :=
  fun i => msgAt V c ⟨(i 0).val, idx2_lt0 i⟩ ⟨(i 1).val, idx2_lt1 i⟩

/-! ## The blocks of the seven input windows at a point -/

/-- The printed index maps over the hundred points: every row window's block index is (t, 0), the two masks' is
    (0, 0). -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of point t's query block is row 6000 t + p of the gathered queries. -/
private theorem q_entry (c : Dev nD) (t : Fin cfg1.N) (p : Fin 6000) (e : Fin 600000) (he : e.val = t.val * 6000 + p.val)
    (k : Fin 128) : (iblk1 (F := Ideal) V c 0 t : FVec Ideal S6000x128 .f32) (ix2 p k) = qiArr V c (ix2 e k) := by
  obtain ⟨⟨h0, h1⟩, -⟩ := idx_facts t
  unfold iblk1
  rw [View.read_apply]
  show V c main_v12 _ = V c main_v12 _
  congr 1
  funext a; apply Fin.ext
  match a with
  | ⟨0, _⟩ => show win1_0.index t (0 : Fin 2) * 6000 + 1 * p.val = e.val; omega
  | ⟨1, _⟩ => show win1_0.index t (1 : Fin 2) * 128 + 1 * k.val = k.val; omega

/-- Row p of point t's key block is row 6000 t + p of the gathered keys. -/
private theorem k_entry (c : Dev nD) (t : Fin cfg1.N) (p : Fin 6000) (e : Fin 600000) (he : e.val = t.val * 6000 + p.val)
    (k : Fin 128) : (iblk1 (F := Ideal) V c 1 t : FVec Ideal S6000x128 .f32) (ix2 p k) = kjArr V c (ix2 e k) := by
  obtain ⟨-, ⟨h0, h1⟩, -⟩ := idx_facts t
  unfold iblk1
  rw [View.read_apply]
  show V c main_v13 _ = V c main_v13 _
  congr 1
  funext a; apply Fin.ext
  match a with
  | ⟨0, _⟩ => show win1_1.index t (0 : Fin 2) * 6000 + 1 * p.val = e.val; omega
  | ⟨1, _⟩ => show win1_1.index t (1 : Fin 2) * 128 + 1 * k.val = k.val; omega

/-- Row p of point t's value block is row 6000 t + p of the gathered values. -/
private theorem v_entry (c : Dev nD) (t : Fin cfg1.N) (p : Fin 6000) (e : Fin 600000) (he : e.val = t.val * 6000 + p.val)
    (k : Fin 128) : (iblk1 (F := Ideal) V c 2 t : FVec Ideal S6000x128 .f32) (ix2 p k) = vjArr V c (ix2 e k) := by
  obtain ⟨-, -, ⟨h0, h1⟩, -⟩ := idx_facts t
  unfold iblk1
  rw [View.read_apply]
  show V c main_v14 _ = V c main_v14 _
  congr 1
  funext a; apply Fin.ext
  match a with
  | ⟨0, _⟩ => show win1_2.index t (0 : Fin 2) * 6000 + 1 * p.val = e.val; omega
  | ⟨1, _⟩ => show win1_2.index t (1 : Fin 2) * 128 + 1 * k.val = k.val; omega

/-- Row p of point t's weight block is row 6000 t + p of the edge weights. -/
private theorem w_entry (c : Dev nD) (t : Fin cfg1.N) (p : Fin 6000) (e : Fin 600000) (he : e.val = t.val * 6000 + p.val)
    (k : Fin 128) : (iblk1 (F := Ideal) V c 3 t : FVec Ideal S6000x128 .f32) (ix2 p k) = ewArr V c (ix2 e k) := by
  obtain ⟨-, -, -, ⟨h0, h1⟩, -⟩ := idx_facts t
  unfold iblk1
  rw [View.read_apply]
  show V c main_arg1 _ = V c main_arg1 _
  congr 1
  funext a; apply Fin.ext
  match a with
  | ⟨0, _⟩ => show win1_3.index t (0 : Fin 2) * 6000 + 1 * p.val = e.val; omega
  | ⟨1, _⟩ => show win1_3.index t (1 : Fin 2) * 128 + 1 * k.val = k.val; omega

/-- Row p of point t's cutoff block is row 6000 t + p of the cutoff column. -/
private theorem cut_entry (c : Dev nD) (t : Fin cfg1.N) (p : Fin 6000) (e : Fin 600000) (he : e.val = t.val * 6000 + p.val) :
    (iblk1 (F := Ideal) V c 4 t : FVec Ideal S6000x1 .f32) (ix2 p (0 : Fin 1)) = cutArr V c (ix2 e (0 : Fin 1)) := by
  obtain ⟨-, -, -, -, ⟨h0, h1⟩, -⟩ := idx_facts t
  unfold iblk1
  rw [View.read_apply]
  show V c main_arg3 _ = V c main_arg3 _
  congr 1
  funext a; apply Fin.ext
  match a with
  | ⟨0, _⟩ => show win1_4.index t (0 : Fin 2) * 6000 + 1 * p.val = e.val; omega
  | ⟨1, _⟩ => show win1_4.index t (1 : Fin 2) * 1 + 1 * 0 = 0; omega

/-- The head mask's one block is the mask. -/
private theorem mask_entry (c : Dev nD) (t : Fin cfg1.N) (k : Fin 128) (h : Fin 8) :
    (iblk1 (F := Ideal) V c 5 t : FVec Ideal S128x8 .f32) (ix2 k h) = maskArr V c (ix2 k h) := by
  obtain ⟨-, -, -, -, -, ⟨h0, h1⟩, -⟩ := idx_facts t
  unfold iblk1
  rw [View.read_apply]
  show V c main_cst _ = V c main_cst _
  congr 1
  funext a; apply Fin.ext
  match a with
  | ⟨0, _⟩ => show win1_5.index t (0 : Fin 2) * 128 + 1 * k.val = k.val; omega
  | ⟨1, _⟩ => show win1_5.index t (1 : Fin 2) * 8 + 1 * h.val = h.val; omega

/-- The transposed mask's one block is the transposed mask. -/
private theorem maskT_entry (c : Dev nD) (t : Fin cfg1.N) (h : Fin 8) (k : Fin 128) :
    (iblk1 (F := Ideal) V c 6 t : FVec Ideal S8x128 .f32) (ix2 h k) = maskTArr V c (ix2 h k) := by
  obtain ⟨-, -, -, -, -, -, ⟨h0, h1⟩, -⟩ := idx_facts t
  unfold iblk1
  rw [View.read_apply]
  show V c main_v15 _ = V c main_v15 _
  congr 1
  funext a; apply Fin.ext
  match a with
  | ⟨0, _⟩ => show win1_6.index t (0 : Fin 2) * 8 + 1 * h.val = h.val; omega
  | ⟨1, _⟩ => show win1_6.index t (1 : Fin 2) * 128 + 1 * k.val = k.val; omega

/-! ## What a point writes back -/

/-- The body's block at point t, at row p and feature q, is the message entry of edge 6000 t + p and feature q. -/
private theorem block_entry (c : Dev nD) (t : Fin cfg1.N) (p : Fin 6000) (q : Fin 128) (e : Fin 600000) (d : Fin 128)
    (he : e.val = t.val * 6000 + p.val) (hd : d.val = q.val) :
    k1_pay1 (F := Ideal) (iblk1 V c 0 t) (iblk1 V c 1 t) (iblk1 V c 2 t) (iblk1 V c 3 t) (iblk1 V c 4 t) (iblk1 V c 5 t)
        (iblk1 V c 6 t) (ix2 p q) = msgAt V c e d := by
  obtain rfl : d = q := Fin.ext hd
  refine (payload_apply _ _ _ _ _ _ _ p d).trans ?_
  unfold msgAt
  simp only [q_entry V c t p e he, k_entry V c t p e he, v_entry V c t p e he, w_entry V c t p e he, cut_entry V c t p e he,
    mask_entry V c t, maskT_entry V c t]

private theorem hz : (![0, 0] : Fin 2 → Nat) = fun _ => 0 := funext fun a => by fin_cases a <;> rfl

/-- WHAT POINT t WRITES BACK is block t of the message array's function. -/
private theorem flushed_eq (c : Dev nD) (t : Fin cfg1.N) :
    (dat1 (F := Ideal) V c).flushed 7 t = ((cfg1.win 7).blk t).view.read (Elt Ideal) (msgFn V c) := by
  show (cfg1.win 7).cut (grid1.coords t) ((dat1 (F := Ideal) V c).after 7 t) = _
  rw [after1_7]
  unfold out1_7
  rw [View.canon_unit_zero hz]
  simp only [View.ld_unit_zero (S := S6000x128) hz, View.ld_unit_zero (S := S6000x1) hz, View.ld_unit_zero (S := S128x8) hz,
    View.ld_unit_zero (S := S8x128) hz]
  obtain ⟨-, -, -, -, -, -, -, h70, h71⟩ := idx_facts t
  funext j
  have hp : (j 0).val < 6000 := (j 0).isLt
  have hq : (j 1).val < 128 := (j 1).isLt
  have hx : (cfg1.win 7).xinj (grid1.coords t) j = ix2 (⟨(j 0).val, hp⟩ : Fin 6000) (⟨(j 1).val, hq⟩ : Fin 128) :=
    funext fun a => by match a with | ⟨0, _⟩ => rfl | ⟨1, _⟩ => rfl
  show k1_pay1 (F := Ideal) _ _ _ _ _ _ _ ((cfg1.win 7).xinj (grid1.coords t) j) = msgFn V c (((cfg1.win 7).blk t).view.emb j)
  rw [hx]
  unfold msgFn
  refine block_entry V c t ⟨(j 0).val, hp⟩ ⟨(j 1).val, hq⟩ _ _ ?_ ?_
  · show win1_7.index t (0 : Fin 2) * 6000 + 1 * (j 0).val = t.val * 6000 + (j 0).val; omega
  · show win1_7.index t (1 : Fin 2) * 128 + 1 * (j 1).val = (j 1).val; omega

/-! ## From the blocks to the array -/

/-- An index of the message array is in point t's block iff each coordinate is in the block's range on its axis. -/
private theorem mem_blk (t : Fin cfg1.N) (i : S600000x128.Idx) :
    i ∈ ((cfg1.win 7).blk t).view.set ↔ ∀ a : Fin 2, win1_7.index t a * S6000x128.size a ≤ (i a).val ∧ (i a).val < win1_7.index t a * S6000x128.size a + S6000x128.size a := by
  show i ∈ ((View.whole main_v16).slice (win1_7.rect t)).set ↔ _
  rw [View.set_slice_whole, Rect.mem_set_unit]
  exact Iff.rfl

/-- Every index of the message array is in a written-back block: row r in the block of point r / 6000. -/
private theorem cover (i : S600000x128.Idx) : ∃ t : Fin cfg1.N, (cfg1.win 7).flush t = true ∧ i ∈ ((cfg1.win 7).blk t).view.set := by
  have hi0 : (i 0).val < 600000 := (i 0).isLt
  have hi1 : (i 1).val < 128 := (i 1).isLt
  have hN : grid1.N = 100 := N_1
  have ht : (i 0).val / 6000 < cfg1.N := by show (i 0).val / 6000 < grid1.N; omega
  obtain ⟨-, -, -, -, -, -, -, h70, h71⟩ := idx_facts ⟨(i 0).val / 6000, ht⟩
  refine ⟨⟨(i 0).val / 6000, ht⟩, flush1_7 _, ?_⟩
  rw [mem_blk]
  intro a
  match a with
  | ⟨0, _⟩ =>
    show win1_7.index ⟨(i 0).val / 6000, ht⟩ (0 : Fin 2) * 6000 ≤ (i 0).val ∧ (i 0).val < win1_7.index ⟨(i 0).val / 6000, ht⟩ (0 : Fin 2) * 6000 + 6000
    rw [h70]
    show (i 0).val / 6000 * 6000 ≤ (i 0).val ∧ (i 0).val < (i 0).val / 6000 * 6000 + 6000
    omega
  | ⟨1, _⟩ =>
    show win1_7.index ⟨(i 0).val / 6000, ht⟩ (1 : Fin 2) * 128 ≤ (i 1).val ∧ (i 1).val < win1_7.index ⟨(i 0).val / 6000, ht⟩ (1 : Fin 2) * 128 + 128
    omega

/-- The message array after the region is that function. -/
theorem msgArr_eq (c : Dev nD) : (dat1 (F := Ideal) V c).arrAt 7 cfg1.N = msgFn V c :=
  (dat1 (F := Ideal) V c).arrAt_eq_of_cover 7 (msgFn V c) (fun t _ => flushed_eq V c t) cover

/-- THE MESSAGES after the region, at (e, d): the per-head score (the product q · w · k summed against the mask's
    column h), scaled by the quarter word and the cutoff, spread back over the features by the transposed mask, times
    the value entry. -/
theorem edge_arr (c : Dev nD) (e : Fin 600000) (d : Fin 128) :
    msgArr V c (ix2 e d)
      = (∑ h : Fin 8,
          ((∑ d' : Fin 128, (qiArr V c (ix2 e d') * ewArr V c (ix2 e d') * kjArr V c (ix2 e d')) * maskArr V c (ix2 d' h))
            * Ideal.ofBits .f32 0x3E800000#32 * cutArr V c (ix2 e (0 : Fin 1)))
          * maskTArr V c (ix2 h d))
        * vjArr V c (ix2 e d) :=
  (congrFun (msgArr_eq V c) (ix2 e d)).trans rfl

end Cert.KernelIdeal.EdgeValue

end
-- ==== Proof.LibGatherRead.lean ====
/-
  Row, column, vector and batched gathers read at an index given by coordinates.

  A gather reads, for each result index, one operand entry: on every operand axis the position is the clamped start
  (the start-index word for that axis, read as a signed integer and clamped so that the slice fits; zero on an axis the
  start index map does not name) plus the result's coordinate on a batching axis plus the result's coordinate on an
  offset axis.  For the four arrangements below every slice has extent one on the indexed axis, so the clamp is into
  `[0, N - 1]`, and the other coordinates are copied from the result index.
-/
import Idealize.ShloMosaic.PureOps.ShapeOps
import Idealize.ShloMosaic.Lib.ValueIdx

noncomputable section

namespace Cert.LibGatherRead

open Idealize.ShloMosaic Idealize.ShloMosaic.ValueIdx

variable {α : Type}

/-! ## Rows of a table: `table[idx, :]` -/

/-- The dimension numbers of a gather of whole rows: operand `[N, C]`, start indices `[R, 1]`, result `[R, C]`; the
    result's axis 1 is the offset axis, the operand's axis 0 is collapsed and is the one the start index names, and a
    slice is one row `[1, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A ROW GATHER READ AT `(r, c)`: the operand at row `idx[r, 0]` (read signed, clamped into `[0, N − 1]`) and
    column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the indexed axis: the clamped start, nothing added
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start zero, the result's column
    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

/-! ## Columns of a table: `table[:, idx]` -/

/-- The dimension numbers of a gather of whole columns: operand `[R, N]`, start indices `[C, 1]`, result `[R, C]`;
    the result's axis 0 is the offset axis, the operand's axis 1 is collapsed and is the one the start index names, and
    a slice is one column `[R, 1]`. -/
abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- A COLUMN GATHER READ AT `(r, c)`: the operand at row `r` and column `idx[c, 0]` (read signed, clamped into
    `[0, N − 1]`). -/
theorem gather_cols_apply {N C R w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colsDims N C R wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    -- the offset axis: start zero, the result's row
    show (colsDims N C R wf).start (ix2 r c) idx 0 + (colsDims N C R wf).batchCoord (ix2 r c) 0
        + (colsDims N C R wf).offCoord (ix2 r c) 0 = _
    rw [GatherDims.batchCoord_eq_zero _ _ _ List.not_mem_nil]
    unfold GatherDims.start
    rw [dif_neg (show (0 : Fin 2) ∉ (colsDims N C R wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (colsDims N C R wf).start (ix2 r c) idx 1 + (colsDims N C R wf).batchCoord (ix2 r c) 1
        + (colsDims N C R wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C R wf).startIndexMap from List.mem_singleton.mpr rfl)]
    have hsi : (colsDims N C R wf).siIdx (ix2 r c) ⟨List.idxOf (1 : Fin 2) (colsDims N C R wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-! ## Entries of a vector: `v[idx]` -/

/-- The dimension numbers of a gather of single entries of a vector: operand `[N]`, start indices `[R, 1]`, result
    `[R]`; no offset axis, the operand's only axis is collapsed and is the one the start index names, and a slice is one
    entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A VECTOR GATHER READ AT `r`: the operand at `idx[r, 0]` (read signed, clamped into `[0, N − 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecDims N R wf).start (ix1 r) idx 0 + (vecDims N R wf).batchCoord (ix1 r) 0
        + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## One entry of each row, the row given by the batch: `take_along_axis(table, idx, axis = 1)` -/

/-- The dimension numbers of a batched gather of one entry per row: operand `[R, N]`, start indices `[R, 1, 1]`,
    result `[R, 1]`; no offset axis, axis 0 of the operand and of the start indices are the paired batching axes, the
    operand's axis 1 is collapsed and is the one the start index names, and a slice is one entry. -/
abbrev batchedDims (N R : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A BATCHED GATHER READ AT `(r, u)`: the operand at row `r` and column `idx[r, 0, 0]` (read signed, clamped into
    `[0, N − 1]`). -/
theorem gather_batched_apply {N R w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (batchedDims N R wf) x idx (ix2 r u)
      = x (ix2 r (⟨min (idx (ix3 r (0 : Fin 1) (0 : Fin 1))).toInt.toNat (N - 1), by omega⟩ : Fin N)) := by
  obtain rfl : u = 0 := Subsingleton.elim _ _
  unfold Host.gather
  congr 1
  funext a
  refine Fin.ext ?_
  match a with
  | ⟨0, _⟩ =>
    -- the batching axis: start zero, the result's row, no offset
    show (batchedDims N R wf).start (ix2 r 0) idx 0 + (batchedDims N R wf).batchCoord (ix2 r 0) 0
        + (batchedDims N R wf).offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (batchedDims N R wf).operandBatchingDims from List.mem_singleton.mpr rfl)]
    rfl
  | ⟨1, _⟩ =>
    -- the indexed axis: the clamped start, nothing added
    show (batchedDims N R wf).start (ix2 r 0) idx 1 + (batchedDims N R wf).batchCoord (ix2 r 0) 1
        + (batchedDims N R wf).offCoord (ix2 r 0) 1 = _
    rw [GatherDims.batchCoord_eq_zero _ _ _ (fun h => absurd (List.mem_singleton.mp h)
        (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchedDims N R wf).startIndexMap from List.mem_singleton.mpr rfl)]
    have hsi : (batchedDims N R wf).siIdx (ix2 r 0) ⟨List.idxOf (1 : Fin 2) (batchedDims N R wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRead

end
-- ==== Proof.LibScatterAddRead.lean ====
/-
  Accumulating row and column scatters read at an index given by coordinates, over the extended reals.

  An accumulating scatter adds every update entry to the operand entry it lands on.  Where an update lands is its
  start (the scatter-index word for the scattered axis, read as a signed integer and NOT clamped; zero on the other
  axis) plus its window coordinate; an update whose landing position is outside the operand is dropped.  For a
  scatter of whole rows (or whole columns) the update `(r, c)` lands in row `idx[r, 0]` and column `c` (or in row
  `r` and column `idx[c, 0]`), so an operand entry receives the sum, over the scatter positions whose word names its
  row (its column), of the update entries in its column (its row).
-/
import Idealize.ShloMosaic.PureOps.Contract
import Idealize.ShloMosaic.PureOps.Ideal
import Idealize.ShloMosaic.Lib.ValueIdx

noncomputable section

open scoped BigOperators

namespace Cert.LibScatterAddRead

open Idealize.ShloMosaic Idealize.ShloMosaic.ValueIdx

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Rows of a table: `table.at[idx, :].add(upd)` -/

/-- The dimension numbers of a scatter of whole rows: operand `[N, C]`, scatter indices `[R, 1]`, updates `[R, C]`;
    the updates' axis 1 is the window axis, the operand's axis 0 is inserted and is the one the scatter index names. -/
abbrev rowsDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N C R w : Nat} (wf : ScatterDims.WF ⟨2, ![N, C]⟩ ⟨2, ![R, 1]⟩ ⟨2, ![R, C]⟩ [1] [0] [0] 1)
  (idx : IVec ⟨2, ![R, 1]⟩ w)

/-- On the scattered axis an update's start is its scatter-index word, read signed. -/
theorem rows_start0 (r : Fin R) (c : Fin C) :
    (rowsDims N C R wf).start (ix2 r c) idx 0 = (idx (ix2 r (0 : Fin 1))).toInt := by
  unfold ScatterDims.start
  rw [dif_pos (show (0 : Fin 2) ∈ (rowsDims N C R wf).scatterDimsToOperandDims from List.mem_singleton.mpr rfl)]
  have hsi : (rowsDims N C R wf).siIdx (ix2 r c) ⟨List.idxOf (0 : Fin 2) (rowsDims N C R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the window axis the start is zero. -/
theorem rows_start1 (r : Fin R) (c : Fin C) : (rowsDims N C R wf).start (ix2 r c) idx 1 = 0 := by
  unfold ScatterDims.start
  rw [dif_neg (show (1 : Fin 2) ∉ (rowsDims N C R wf).scatterDimsToOperandDims from
    fun h => absurd (List.mem_singleton.mp h) (show ¬ ((1 : Fin 2) = 0) by decide))]

/-- The scattered axis is inserted: no window coordinate there. -/
theorem rows_window0 (r : Fin R) (c : Fin C) : (rowsDims N C R wf).window (ix2 r c) 0 = 0 := by
  unfold ScatterDims.window
  rw [dif_neg (show (0 : Fin 2) ∉ (rowsDims N C R wf).sKept from
    fun h => (mem_sKept _ _).mp h (List.mem_singleton.mpr rfl))]

/-- The window coordinate on the other axis is the update's column. -/
theorem rows_window1 (r : Fin R) (c : Fin C) : (rowsDims N C R wf).window (ix2 r c) 1 = c.val := by
  unfold ScatterDims.window
  rw [dif_pos (show (1 : Fin 2) ∈ (rowsDims N C R wf).sKept from
    (mem_sKept _ _).mpr fun h => absurd (List.mem_singleton.mp h) (show ¬ ((1 : Fin 2) = 0) by decide))]
  rfl

/-- Where the update `(r, c)` lands: at `(n, c')` exactly when its scatter-index word, read signed, is `n` and
    `c = c'`. -/
theorem rows_lands_iff (r : Fin R) (c : Fin C) (n : Fin N) (c' : Fin C) :
    (rowsDims N C R wf).resultIdx? (ix2 r c) idx = some (ix2 n c')
      ↔ (idx (ix2 r (0 : Fin 1))).toInt = (n.val : Int) ∧ c = c' := by
  unfold ScatterDims.resultIdx?
  constructor
  · intro h
    split at h
    · have hf := Option.some.inj h
      have h0 : ((rowsDims N C R wf).start (ix2 r c) idx 0 + ((rowsDims N C R wf).window (ix2 r c) 0 : Int)).toNat = n.val :=
        congrArg (fun f : (⟨2, ![N, C]⟩ : Shape).Idx => (f 0).val) hf
      have h1 : ((rowsDims N C R wf).start (ix2 r c) idx 1 + ((rowsDims N C R wf).window (ix2 r c) 1 : Int)).toNat = c'.val :=
        congrArg (fun f : (⟨2, ![N, C]⟩ : Shape).Idx => (f 1).val) hf
      rename_i hall
      have hb := (hall 0).1
      rw [rows_start0, rows_window0] at h0 hb
      rw [rows_start1, rows_window1] at h1
      refine ⟨by omega, Fin.ext (by omega)⟩
    · exact absurd h (by simp)
  · rintro ⟨hv, rfl⟩
    have hall : ∀ a : Fin 2, 0 ≤ (rowsDims N C R wf).start (ix2 r c) idx a + ((rowsDims N C R wf).window (ix2 r c) a : Int)
        ∧ (rowsDims N C R wf).start (ix2 r c) idx a + ((rowsDims N C R wf).window (ix2 r c) a : Int)
          < ((⟨2, ![N, C]⟩ : Shape).size a : Int) := by
      intro a
      match a with
      | ⟨0, _⟩ =>
        show 0 ≤ (rowsDims N C R wf).start (ix2 r c) idx 0 + ((rowsDims N C R wf).window (ix2 r c) 0 : Int)
          ∧ (rowsDims N C R wf).start (ix2 r c) idx 0 + ((rowsDims N C R wf).window (ix2 r c) 0 : Int) < (N : Int)
        rw [rows_start0, rows_window0, hv]
        have := n.isLt
        omega
      | ⟨1, _⟩ =>
        show 0 ≤ (rowsDims N C R wf).start (ix2 r c) idx 1 + ((rowsDims N C R wf).window (ix2 r c) 1 : Int)
          ∧ (rowsDims N C R wf).start (ix2 r c) idx 1 + ((rowsDims N C R wf).window (ix2 r c) 1 : Int) < (C : Int)
        rw [rows_start1, rows_window1]
        have := c.isLt
        omega
    rw [dif_pos hall]
    refine congrArg some (funext fun a => Fin.ext ?_)
    match a with
    | ⟨0, _⟩ =>
      show ((rowsDims N C R wf).start (ix2 r c) idx 0 + ((rowsDims N C R wf).window (ix2 r c) 0 : Int)).toNat = n.val
      rw [rows_start0, rows_window0, hv]
      omega
    | ⟨1, _⟩ =>
      show ((rowsDims N C R wf).start (ix2 r c) idx 1 + ((rowsDims N C R wf).window (ix2 r c) 1 : Int)).toNat = c.val
      rw [rows_start1, rows_window1]
      omega

/-- AN ACCUMULATING ROW SCATTER READ AT `(n, c)`: the operand entry plus the sum, over the scatter positions `r` whose
    word names row `n`, of the update entries `(r, c)`. -/
theorem scatterAdd_rows_apply (x : (⟨2, ![N, C]⟩ : Shape).Idx → EReal) (upd : (⟨2, ![R, C]⟩ : Shape).Idx → EReal)
    (n : Fin N) (c : Fin C) :
    Ideal.hostScatterAdd (rowsDims N C R wf) x idx upd (ix2 n c)
      = x (ix2 n c) + ∑ r : Fin R, if (idx (ix2 r (0 : Fin 1))).toInt = (n.val : Int) then upd (ix2 r c) else 0 := by
  unfold Ideal.hostScatterAdd
  refine congrArg (x (ix2 n c) + ·) ?_
  rw [Finset.sum_filter, sum_idx2]
  refine Finset.sum_congr rfl fun r _ => ?_
  by_cases hv : (idx (ix2 r (0 : Fin 1))).toInt = (n.val : Int)
  · rw [if_pos hv]
    rw [Finset.sum_eq_single c]
    · rw [if_pos ((rows_lands_iff wf idx r c n c).mpr ⟨hv, rfl⟩)]
    · intro c' _ hne
      rw [if_neg (fun h => hne ((rows_lands_iff wf idx r c' n c).mp h).2)]
    · intro h; exact absurd (Finset.mem_univ c) h
  · rw [if_neg hv]
    refine Finset.sum_eq_zero fun c' _ => ?_
    rw [if_neg (fun h => hv ((rows_lands_iff wf idx r c' n c).mp h).1)]

end Rows

/-! ## Columns of a table: `table.at[:, idx].add(upd)` -/

/-- The dimension numbers of a scatter of whole columns: operand `[R, N]`, scatter indices `[C, 1]`, updates
    `[R, C]`; the updates' axis 0 is the window axis, the operand's axis 1 is inserted and is the one the scatter index
    names. -/
abbrev colsDims (N C R : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

section Cols
variable {N C R w : Nat} (wf : ScatterDims.WF ⟨2, ![R, N]⟩ ⟨2, ![C, 1]⟩ ⟨2, ![R, C]⟩ [0] [1] [1] 1)
  (idx : IVec ⟨2, ![C, 1]⟩ w)

/-- On the window axis the start is zero. -/
theorem cols_start0 (r : Fin R) (c : Fin C) : (colsDims N C R wf).start (ix2 r c) idx 0 = 0 := by
  unfold ScatterDims.start
  rw [dif_neg (show (0 : Fin 2) ∉ (colsDims N C R wf).scatterDimsToOperandDims from
    fun h => absurd (List.mem_singleton.mp h) (show ¬ ((0 : Fin 2) = 1) by decide))]

/-- On the scattered axis an update's start is its scatter-index word, read signed. -/
theorem cols_start1 (r : Fin R) (c : Fin C) :
    (colsDims N C R wf).start (ix2 r c) idx 1 = (idx (ix2 c (0 : Fin 1))).toInt := by
  unfold ScatterDims.start
  rw [dif_pos (show (1 : Fin 2) ∈ (colsDims N C R wf).scatterDimsToOperandDims from List.mem_singleton.mpr rfl)]
  have hsi : (colsDims N C R wf).siIdx (ix2 r c) ⟨List.idxOf (1 : Fin 2) (colsDims N C R wf).scatterDimsToOperandDims,
      List.idxOf_lt_length_iff.2 (List.mem_singleton.mpr rfl)⟩ = ix2 c (0 : Fin 1) := by
    funext b; refine Fin.ext ?_
    match b with
    | ⟨0, _⟩ => rfl
    | ⟨1, _⟩ => rfl
  rw [hsi]

/-- The window coordinate on the window axis is the update's row. -/
theorem cols_window0 (r : Fin R) (c : Fin C) : (colsDims N C R wf).window (ix2 r c) 0 = r.val := by
  unfold ScatterDims.window
  rw [dif_pos (show (0 : Fin 2) ∈ (colsDims N C R wf).sKept from
    (mem_sKept _ _).mpr fun h => absurd (List.mem_singleton.mp h) (show ¬ ((0 : Fin 2) = 1) by decide))]
  rfl

/-- The scattered axis is inserted: no window coordinate there. -/
theorem cols_window1 (r : Fin R) (c : Fin C) : (colsDims N C R wf).window (ix2 r c) 1 = 0 := by
  unfold ScatterDims.window
  rw [dif_neg (show (1 : Fin 2) ∉ (colsDims N C R wf).sKept from
    fun h => (mem_sKept _ _).mp h (List.mem_singleton.mpr rfl))]

/-- Where the update `(r, c)` lands: at `(r', n)` exactly when `r = r'` and its scatter-index word, read signed, is
    `n`. -/
theorem cols_lands_iff (r : Fin R) (c : Fin C) (r' : Fin R) (n : Fin N) :
    (colsDims N C R wf).resultIdx? (ix2 r c) idx = some (ix2 r' n)
      ↔ r = r' ∧ (idx (ix2 c (0 : Fin 1))).toInt = (n.val : Int) := by
  unfold ScatterDims.resultIdx?
  constructor
  · intro h
    split at h
    · have hf := Option.some.inj h
      have h0 : ((colsDims N C R wf).start (ix2 r c) idx 0 + ((colsDims N C R wf).window (ix2 r c) 0 : Int)).toNat = r'.val :=
        congrArg (fun f : (⟨2, ![R, N]⟩ : Shape).Idx => (f 0).val) hf
      have h1 : ((colsDims N C R wf).start (ix2 r c) idx 1 + ((colsDims N C R wf).window (ix2 r c) 1 : Int)).toNat = n.val :=
        congrArg (fun f : (⟨2, ![R, N]⟩ : Shape).Idx => (f 1).val) hf
      rename_i hall
      have hb := (hall 1).1
      rw [cols_start0, cols_window0] at h0
      rw [cols_start1, cols_window1] at h1 hb
      refine ⟨Fin.ext (by omega), by omega⟩
    · exact absurd h (by simp)
  · rintro ⟨rfl, hv⟩
    have hall : ∀ a : Fin 2, 0 ≤ (colsDims N C R wf).start (ix2 r c) idx a + ((colsDims N C R wf).window (ix2 r c) a : Int)
        ∧ (colsDims N C R wf).start (ix2 r c) idx a + ((colsDims N C R wf).window (ix2 r c) a : Int)
          < ((⟨2, ![R, N]⟩ : Shape).size a : Int) := by
      intro a
      match a with
      | ⟨0, _⟩ =>
        show 0 ≤ (colsDims N C R wf).start (ix2 r c) idx 0 + ((colsDims N C R wf).window (ix2 r c) 0 : Int)
          ∧ (colsDims N C R wf).start (ix2 r c) idx 0 + ((colsDims N C R wf).window (ix2 r c) 0 : Int) < (R : Int)
        rw [cols_start0, cols_window0]
        have := r.isLt
        omega
      | ⟨1, _⟩ =>
        show 0 ≤ (colsDims N C R wf).start (ix2 r c) idx 1 + ((colsDims N C R wf).window (ix2 r c) 1 : Int)
          ∧ (colsDims N C R wf).start (ix2 r c) idx 1 + ((colsDims N C R wf).window (ix2 r c) 1 : Int) < (N : Int)
        rw [cols_start1, cols_window1, hv]
        have := n.isLt
        omega
    rw [dif_pos hall]
    refine congrArg some (funext fun a => Fin.ext ?_)
    match a with
    | ⟨0, _⟩ =>
      show ((colsDims N C R wf).start (ix2 r c) idx 0 + ((colsDims N C R wf).window (ix2 r c) 0 : Int)).toNat = r.val
      rw [cols_start0, cols_window0]
      omega
    | ⟨1, _⟩ =>
      show ((colsDims N C R wf).start (ix2 r c) idx 1 + ((colsDims N C R wf).window (ix2 r c) 1 : Int)).toNat = n.val
      rw [cols_start1, cols_window1, hv]
      omega

/-- AN ACCUMULATING COLUMN SCATTER READ AT `(r, n)`: the operand entry plus the sum, over the scatter positions `c`
    whose word names column `n`, of the update entries `(r, c)`. -/
theorem scatterAdd_cols_apply (x : (⟨2, ![R, N]⟩ : Shape).Idx → EReal) (upd : (⟨2, ![R, C]⟩ : Shape).Idx → EReal)
    (r : Fin R) (n : Fin N) :
    Ideal.hostScatterAdd (colsDims N C R wf) x idx upd (ix2 r n)
      = x (ix2 r n) + ∑ c : Fin C, if (idx (ix2 c (0 : Fin 1))).toInt = (n.val : Int) then upd (ix2 r c) else 0 := by
  unfold Ideal.hostScatterAdd
  refine congrArg (x (ix2 r n) + ·) ?_
  rw [Finset.sum_filter, sum_idx2, Finset.sum_eq_single r]
  · refine Finset.sum_congr rfl fun c _ => ?_
    by_cases hv : (idx (ix2 c (0 : Fin 1))).toInt = (n.val : Int)
    · rw [if_pos hv, if_pos ((cols_lands_iff wf idx r c r n).mpr ⟨rfl, hv⟩)]
    · rw [if_neg hv, if_neg (fun h => hv ((cols_lands_iff wf idx r c r n).mp h).2)]
  · intro r' _ hne
    refine Finset.sum_eq_zero fun c _ => ?_
    rw [if_neg (fun h => hne ((cols_lands_iff wf idx r' c r n).mp h).1)]
  · intro h; exact absurd (Finset.mem_univ r) h

end Cols

end Cert.LibScatterAddRead

end
-- ==== Proof.LibHostScatterAdd.lean ====
/-
  The host's accumulating row scatter over the extended reals, read at an index.

  `Host.scatterAdd` at the ideal instance is the exact sum: each operand entry plus the sum of the update entries that
  land on it.  For a scatter of whole rows (operand `[N, C]`, scatter indices `[R, 1]`, updates `[R, C]`) entry
  `(n, c)` receives the update entries `(r, c)` of the scatter positions `r` whose word, read signed, is `n`.  The
  lemma takes the dimension numbers as a variable together with the equation that says they are a row scatter's, so
  that a use at literal extents is a plain application: nothing about the sum is ever compared by unfolding it.
-/
import Idealize.ShloMosaic.PureOps.Contract
import Idealize.ShloMosaic.PureOps.Ideal
import Idealize.ShloMosaic.Lib.ValueIdx
import proofs.«431115_j89910845374839_1_alg».proof.Proof.LibScatterAddRead

noncomputable section

open scoped BigOperators

namespace Cert.LibHostScatterAdd

open Idealize.ShloMosaic Idealize.ShloMosaic.ValueIdx

/-- THE HOST'S ACCUMULATING ROW SCATTER READ AT `(n, c)`: the operand entry plus the sum, over the scatter positions
    whose word names row `n`, of the update entries in column `c`. -/
theorem hostScatterAdd_rows_apply {N C R w : Nat}
    (wf : ScatterDims.WF ⟨2, ![N, C]⟩ ⟨2, ![R, 1]⟩ ⟨2, ![R, C]⟩ [1] [0] [0] 1)
    (d : ScatterDims ⟨2, ![N, C]⟩ ⟨2, ![R, 1]⟩ ⟨2, ![R, C]⟩) (hd : d = Cert.LibScatterAddRead.rowsDims N C R wf)
    (x : FVec Ideal ⟨2, ![N, C]⟩ .f32) (idx : IVec ⟨2, ![R, 1]⟩ w) (upd : FVec Ideal ⟨2, ![R, C]⟩ .f32)
    (n : Fin N) (c : Fin C) :
    Host.scatterAdd (F := Ideal) d x idx upd (ix2 n c)
      = x (ix2 n c) + ∑ r : Fin R, if (idx (ix2 r (0 : Fin 1))).toInt = (n.val : Int) then upd (ix2 r c) else 0 := by
  subst hd
  unfold Host.scatterAdd
  rw [Ideal.hostScatterAdd_def]
  exact Cert.LibScatterAddRead.scatterAdd_rows_apply wf idx x upd n c

end Cert.LibHostScatterAdd

end
-- ==== Proof.TakeRead.lean ====
/-
  The kernel program's row gathers and its final accumulating row scatter, read at an index.
-/
import proofs.«431115_j89910845374839_1_alg».proof.Proof.HostTerms
import proofs.«431115_j89910845374839_1_alg».proof.Proof.MsgSpec
import proofs.«431115_j89910845374839_1_alg».proof.Proof.LibGatherRead
import proofs.«431115_j89910845374839_1_alg».proof.Proof.LibHostScatterAdd
import Idealize.ShloMosaic.Lib.ValueIdx
import Idealize.ShloMosaic.Lib.Affine
import Idealize.ShloMosaic.PureOps.Reduce
import Idealize.ShloMosaic.PureOps.Ideal.Laws

open scoped BigOperators

noncomputable section

namespace Cert.KernelIdeal.TakeRead

open Idealize.ShloMosaic Idealize.ShloMosaic.ValueIdx
open Cert.KernelIdeal Cert.KernelIdeal.Gen Cert.KernelIdeal.HostTerms

/-! ## Broadcasts read at an index -/

/-- A vector laid as a column reads, at (e, 0), the vector at e. -/
private theorem col_apply {α : Type} (v : S600000.Idx → α) (e : Fin 600000) :
    broadcastInDim S600000x1 ![0] bcast_S600000_S600000x1_0 v (ix2 e (0 : Fin 1)) = v (ix1 e) := by
  unfold broadcastInDim
  refine congrArg v (funext fun a => ?_)
  match a with
  | ⟨0, _⟩ => rfl

/-- A vector laid along the rows of the edge table reads, at (e, d), the vector at e. -/
private theorem rows_apply {α : Type} (v : S600000.Idx → α) (e : Fin 600000) (d : Fin 128) :
    broadcastInDim S600000x128 ![0] bcast_S600000_S600000x128_0 v (ix2 e d) = v (ix1 e) := by
  unfold broadcastInDim
  refine congrArg v (funext fun a => ?_)
  match a with
  | ⟨0, _⟩ => rfl

/-! ## Words -/

/-- A word that reads non-negative is not moved: the signed compare against the zero word is the 0 bit. -/
private theorem wrap_word (wd : BitVec 32) (h0 : 0 ≤ wd.toInt) :
    Scalar.select (IntOp.cmpi .slt wd 0#32) (IntOp.addi wd 50000#32) wd = wd := by
  have hz : (0#32 : BitVec 32).toInt = 0 := by decide
  have hc : ¬ IntOp.cmpi .slt wd 0#32 = 1#1 := by
    rw [IntOp.cmpi_slt, hz]; omega
  exact if_neg hc

/-- A word that reads inside [0, 50000) passes both signed compares. -/
private theorem inside_word (wd : BitVec 32) (h0 : 0 ≤ wd.toInt) (h1 : wd.toInt < 50000) :
    IntOp.andi (IntOp.cmpi .sge wd 0#32) (IntOp.cmpi .sle wd 49999#32) = 1#1 := by
  have hz : (0#32 : BitVec 32).toInt = 0 := by decide
  have hm : (49999#32 : BitVec 32).toInt = 49999 := by decide
  refine IntOp.andi_eq_one.2 ⟨?_, ?_⟩
  · rw [IntOp.cmpi_sge, hz]; exact h0
  · rw [IntOp.cmpi_sle, hm]; omega

/-- An and-fold from the 1 bit over 1 bits is the 1 bit. -/
private theorem fold_andi_one {ι : Type} (S : Finset ι) (x : ι → BitVec 1) (b : BitVec 1) (hb : b = 1#1)
    (hx : ∀ i ∈ S, x i = 1#1) : S.fold IntOp.andi b x = 1#1 := by
  induction S using Finset.cons_induction with
  | empty => rw [Finset.fold_empty]; exact hb
  | cons a S ha ih =>
    rw [Finset.fold_cons]
    exact IntOp.andi_eq_one.2 ⟨hx a (Finset.mem_cons_self a S), ih (fun i hi => hx i (Finset.mem_cons_of_mem hi))⟩

/-- The moved index column at (e, 0), for a word that reads non-negative: the word itself. -/
private theorem wrapIdx_apply (idx : IVec S600000 32) (e : Fin 600000) (h0 : 0 ≤ (idx (ix1 e)).toInt) :
    wrapIdx idx (ix2 e (0 : Fin 1)) = idx (ix1 e) := by
  unfold wrapIdx
  rw [col_apply]
  exact wrap_word (idx (ix1 e)) h0

/-- The in-range bit of position e is 1 when the column's word there reads inside the table. -/
private theorem inRange_one (I : IVec S600000x1 32) (e : Fin 600000) (h0 : 0 ≤ (I (ix2 e (0 : Fin 1))).toInt)
    (h1 : (I (ix2 e (0 : Fin 1))).toInt < 50000) : inRange I (ix1 e) = 1#1 := by
  unfold inRange
  rw [Host.reduce_eq_fold]
  refine fold_andi_one _ _ _ rfl (fun i hi => ?_)
  have hd := (Finset.mem_filter.1 hi).2
  have hv : (reducesTo_S600000x1_S600000_d1.drop i 0 : Nat) = i 0 := Shape.ReducesTo.drop_apply_val _ i 0
  have he : i 0 = e := by
    have h2 : (reducesTo_S600000x1_S600000_d1.drop i 0 : Nat) = e.val := by rw [hd]
    exact Fin.ext (hv.symm.trans h2)
  have hi0 : i = ix2 e (0 : Fin 1) := by
    funext a
    match a with
    | ⟨0, _⟩ => exact he
    | ⟨1, _⟩ => exact Fin.ext (by have := idx2_lt1 i; show (i 1).val = 0; omega)
  rw [hi0]
  exact inside_word (I (ix2 e (0 : Fin 1))) h0 h1

/-- A TABLE'S ROWS TAKEN AT AN INDEX VECTOR, at (e, d), where word e names a node of the table: that node's row. -/
theorem takeRows_apply (X : FVec Ideal S50000x128 .f32) (idx : IVec S600000 32) (e : Fin 600000) (d : Fin 128)
    (h0 : 0 ≤ (idx (ix1 e)).toInt) (h1 : (idx (ix1 e)).toInt < 50000) :
    takeRows X idx (ix2 e d) = X (ix2 (Cert.MsgSpec.node (idx (ix1 e))) d) := by
  have hw := wrapIdx_apply idx e h0
  unfold takeRows
  rw [select_apply, rows_apply, inRange_one (wrapIdx idx) e (by rw [hw]; exact h0) (by rw [hw]; exact h1), select_one]
  refine (Cert.LibGatherRead.gather_rows_apply (N := 50000) (C := 128) (R := 600000) (by decide)
    gather_S50000x128_S600000x1_S600000x128_1_0_n_n_0_1_1128_wf X (wrapIdx idx) e d).trans ?_
  exact congrArg (fun wd : BitVec 32 => X (ix2 (Cert.MsgSpec.node wd) d)) hw

/-- THE ACCUMULATING ROW SCATTER INTO THE ZERO TABLE, at (n, d): the sum of the update entries (e, d) over the positions
    e whose word, read signed, is n. -/
theorem scatterRows_apply (idx : IVec S600000 32) (msgs : FVec Ideal S600000x128 .f32) (n : Fin 50000) (d : Fin 128) :
    scatterRows idx msgs (ix2 n d) = ∑ e : Fin 600000, if (idx (ix1 e)).toInt = (n.val : Int) then msgs (ix2 e d) else 0 := by
  unfold scatterRows
  refine (Cert.LibHostScatterAdd.hostScatterAdd_rows_apply (N := 50000) (C := 128) (R := 600000)
    scatter_S50000x128_S600000x1_S600000x128_1_0_0_1_wf scatter_S50000x128_S600000x1_S600000x128_1_0_0_1 rfl _ _ msgs n d).trans ?_
  have hz : broadcastInDim S50000x128 ![] bcast_S_S50000x128 (constant (F := Ideal) S_ .f32 0x00000000#32) (ix2 n d) = 0 :=
    Ideal.ofBits_zero_f32
  rw [hz, zero_add]
  refine Finset.sum_congr rfl (fun e _ => ?_)
  rw [col_apply]

end Cert.KernelIdeal.TakeRead

end
-- ==== Proof.LayoutRead.lean ====
/-
  The kernel program's layout operations read at an index: the fused weight matrix, the three column blocks of the
  fused projection, the two rows of the index array, and the head mask's literal table and its transpose.
-/
import proofs.«431115_j89910845374839_1_alg».proof.Proof.HostTerms
import proofs.«431115_j89910845374839_1_alg».proof.Proof.MsgSpec
import Idealize.ShloMosaic.Lib.Pipeline.Value
import Idealize.ShloMosaic.Lib.ValueIdx
import Idealize.ShloMosaic.Lib.ValueLayout
import Idealize.ShloMosaic.Lib.IdealHost

open scoped BigOperators

noncomputable section

namespace Cert.KernelIdeal.LayoutRead

open Idealize.ShloMosaic Idealize.ShloMosaic.ValueIdx
open Cert.KernelIdeal Cert.KernelIdeal.Gen Cert.KernelIdeal.HostTerms

/-- A transposed square matrix read at (k, d) is the matrix at (d, k). -/
private theorem transpose_sq_apply (W : FVec Ideal S128x128 .f32) (k d : Fin 128) :
    transpose S128x128 [1, 0] W transposes_S128x128_S128x128_1_0 (ix2 k d) = W (ix2 d k) :=
  transpose_apply [1, 0] W transposes_S128x128_S128x128_1_0 (ix2 k d) (ix2 d k) (fun b => match b with
    | ⟨0, _⟩ => rfl
    | ⟨1, _⟩ => rfl)

/-- Column d of the fused weights is row d of the query weights, -/
theorem wcat_q (Wq Wk Wv : FVec Ideal S128x128 .f32) (k d : Fin 128) :
    wcat Wq Wk Wv (ix2 k (⟨d.val, by omega⟩ : Fin 384)) = Wq (ix2 d k) := by
  -- columns 0–127 lie in the first piece, at the same column
  unfold wcat
  refine (concatenate_apply_piece (1 : Fin S128x384.rank) _ _
    (ix2 k (⟨d.val, by omega⟩ : Fin 384)) 0 (by show (0 : ℕ) < 3; omega) S128x128 _ rfl rfl 0 rfl (ix2 k d) ?_ ?_).trans
    (transpose_sq_apply Wq k d)
  · intro b hb
    match b with
    | ⟨0, _⟩ => rfl
    | ⟨1, _⟩ => exact (hb (Fin.ext rfl)).elim
  · show 0 + d.val = d.val
    omega
/-- column 128 + d is row d of the key weights, -/
theorem wcat_k (Wq Wk Wv : FVec Ideal S128x128 .f32) (k d : Fin 128) :
    wcat Wq Wk Wv (ix2 k (⟨128 + d.val, by omega⟩ : Fin 384)) = Wk (ix2 d k) := by
  -- columns 128–255 lie in the second piece, 128 columns in
  unfold wcat
  refine (concatenate_apply_piece (1 : Fin S128x384.rank) _ _
    (ix2 k (⟨128 + d.val, by omega⟩ : Fin 384)) 1 (by show (1 : ℕ) < 3; omega) S128x128 _ rfl rfl 128 rfl (ix2 k d) ?_ ?_).trans
    (transpose_sq_apply Wk k d)
  · intro b hb
    match b with
    | ⟨0, _⟩ => rfl
    | ⟨1, _⟩ => exact (hb (Fin.ext rfl)).elim
  · show 128 + d.val = 128 + d.val
    rfl
/-- column 256 + d is row d of the value weights. -/
theorem wcat_v (Wq Wk Wv : FVec Ideal S128x128 .f32) (k d : Fin 128) :
    wcat Wq Wk Wv (ix2 k (⟨256 + d.val, by omega⟩ : Fin 384)) = Wv (ix2 d k) := by
  -- columns 256–383 lie in the third piece, 256 columns in
  unfold wcat
  refine (concatenate_apply_piece (1 : Fin S128x384.rank) _ _
    (ix2 k (⟨256 + d.val, by omega⟩ : Fin 384)) 2 (by show (2 : ℕ) < 3; omega) S128x128 _ rfl rfl 256 rfl (ix2 k d) ?_ ?_).trans
    (transpose_sq_apply Wv k d)
  · intro b hb
    match b with
    | ⟨0, _⟩ => rfl
    | ⟨1, _⟩ => exact (hb (Fin.ext rfl)).elim
  · show 256 + d.val = 256 + d.val
    rfl

theorem cols0_apply (Y : FVec Ideal S50000x384 .f32) (n : Fin 50000) (d : Fin 128) :
    cols0 Y (ix2 n d) = Y (ix2 n (⟨d.val, by omega⟩ : Fin 384)) := by
  unfold cols0
  exact extractStridedSlice_apply ![0, 0] Y slices_S50000x384_S50000x128_0_0 (ix2 n d) (ix2 n (⟨d.val, by omega⟩ : Fin 384))
    (fun a => match a with
      | ⟨0, _⟩ => by show n.val = 0 + n.val; omega
      | ⟨1, _⟩ => by show d.val = 0 + d.val; omega)
theorem cols1_apply (Y : FVec Ideal S50000x384 .f32) (n : Fin 50000) (d : Fin 128) :
    cols1 Y (ix2 n d) = Y (ix2 n (⟨128 + d.val, by omega⟩ : Fin 384)) := by
  unfold cols1
  exact extractStridedSlice_apply ![0, 128] Y slices_S50000x384_S50000x128_0_128 (ix2 n d) (ix2 n (⟨128 + d.val, by omega⟩ : Fin 384))
    (fun a => match a with
      | ⟨0, _⟩ => by show n.val = 0 + n.val; omega
      | ⟨1, _⟩ => by show 128 + d.val = 128 + d.val; rfl)
theorem cols2_apply (Y : FVec Ideal S50000x384 .f32) (n : Fin 50000) (d : Fin 128) :
    cols2 Y (ix2 n d) = Y (ix2 n (⟨256 + d.val, by omega⟩ : Fin 384)) := by
  unfold cols2
  exact extractStridedSlice_apply ![0, 256] Y slices_S50000x384_S50000x128_0_256 (ix2 n d) (ix2 n (⟨256 + d.val, by omega⟩ : Fin 384))
    (fun a => match a with
      | ⟨0, _⟩ => by show n.val = 0 + n.val; omega
      | ⟨1, _⟩ => by show 256 + d.val = 256 + d.val; rfl)

theorem idxRow0_apply (ei : IVec S2x600000 32) (e : Fin 600000) : idxRow0 ei (ix1 e) = ei (ix2 (0 : Fin 2) e) := by
  -- position e of the vector is position (0, e) of the one-row slice, which is row 0 of the array
  unfold idxRow0
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![0, 0] ei slices_S2x600000_S1x600000_0_0 (ix2 (0 : Fin 1) e) (ix2 (0 : Fin 2) e)
      (fun a => match a with
        | ⟨0, _⟩ => rfl
        | ⟨1, _⟩ => by show e.val = 0 + e.val; omega)
theorem idxRow1_apply (ei : IVec S2x600000 32) (e : Fin 600000) : idxRow1 ei (ix1 e) = ei (ix2 (1 : Fin 2) e) := by
  -- position e of the vector is position (0, e) of the one-row slice, which is row 1 of the array
  unfold idxRow1
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![1, 0] ei slices_S2x600000_S1x600000_1_0 (ix2 (0 : Fin 1) e) (ix2 (1 : Fin 2) e)
      (fun a => match a with
        | ⟨0, _⟩ => rfl
        | ⟨1, _⟩ => by show e.val = 0 + e.val; omega)

/-- The literal table by evaluation: entry i (row i / 8, column i % 8) is the word of one exactly when the row's
    head i / 128 is the column, and the word of zero otherwise. -/
private theorem lit0_eq : ∀ i : Fin 1024,
    lit0 i = if i.val / 128 = i.val % 8 then 0x3F800000#32 else 0x00000000#32 := by
  decide +kernel

/-- The literal table is the block-diagonal 0/1 mask, -/
theorem maskTab_apply (d : Fin 128) (h : Fin 8) : maskTab (ix2 d h) = Cert.MsgSpec.hm d h := by
  -- entry (d, h) sits at row-major position 8 d + h, whose row head is d / 16 and whose column is h
  have hv : (S128x8.rowMajor (ix2 d h)).val = d.val * 8 + h.val := by
    rw [Shape.rowMajor_val_two]; rfl
  have e1 : (d.val * 8 + h.val) / 128 = d.val / 16 := by omega
  have e2 : (d.val * 8 + h.val) % 8 = h.val := by omega
  show Ideal.ofBits .f32 (lit0 (S128x8.rowMajor (ix2 d h))) = _
  rw [lit0_eq (S128x8.rowMajor (ix2 d h)), hv, e1, e2, Cert.MsgSpec.hm]
  by_cases hc : d.val / 16 = h.val
  · rw [if_pos hc, if_pos hc]; exact Ideal.ofBits_one_f32
  · rw [if_neg hc, if_neg hc]; exact Ideal.ofBits_zero_f32
/-- and so is its transpose, read the other way round. -/
theorem maskTabT_apply (h : Fin 8) (d : Fin 128) : maskTabT (ix2 h d) = Cert.MsgSpec.hm d h := by
  unfold maskTabT
  exact (transpose_apply [1, 0] maskTab transposes_S128x8_S8x128_1_0 (ix2 h d) (ix2 d h) (fun b => match b with
    | ⟨0, _⟩ => rfl
    | ⟨1, _⟩ => rfl)).trans (maskTab_apply d h)

end Cert.KernelIdeal.LayoutRead

end
-- ==== Proof.KernelValue.lean ====
/-
  The kernel program's result is the layer's function of the seven arguments, entry by entry, when every source word
  names a node of the table.

  The result is the accumulating row scatter of the message array, so entry (n, d) is the sum of the message entries
  (e, d) over the edges whose destination word reads n.  For such an edge the destination word names a node, so the
  gathered query row is that node's row of the first column block of the fused projection; the source word names a
  node by hypothesis, so the gathered key and value rows are that node's rows of the second and third blocks.  A column
  block of the fused projection is a projection by one of the three weight matrices, because column 128 b + d of the
  fused weights is row d of matrix b.  The two products with the 0/1 head mask are the sum over a head's sixteen lanes
  and the selection of a feature's head, and the scale word is a quarter.
-/
import proofs.«431115_j89910845374839_1_alg».proof.Proof.KernelPlumb
import proofs.«431115_j89910845374839_1_alg».proof.Proof.ProjValue
import proofs.«431115_j89910845374839_1_alg».proof.Proof.EdgeValue
import proofs.«431115_j89910845374839_1_alg».proof.Proof.TakeRead
import proofs.«431115_j89910845374839_1_alg».proof.Proof.LayoutRead
import proofs.«431115_j89910845374839_1_alg».proof.Proof.MsgMath
import proofs.«431115_j89910845374839_1_alg».proof.Proof.MsgSpec

open scoped BigOperators

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.GenP Cert.KernelIdeal.HostTerms Cert.KernelIdeal.Plumb
open Cert.KernelIdeal.TakeRead Cert.KernelIdeal.LayoutRead Cert.MsgSpec Cert.MsgMath

variable (m : (ℓ : Loc nD τ sig) → Buf (Elt Ideal) ℓ) (c : Dev nD)

/-! ## The three column blocks of the fused projection are the three projections -/

/-- Entry (n, j) of the fused projection: row n of the features against column j of the fused weights. -/
theorem qkv_entry (n : Fin 50000) (j : Fin 384) :
    qkvA m c (ix2 n j) = ∑ k : Fin 128, xA m c (ix2 n k) * wcat (WqA m c) (WkA m c) (WvA m c) (ix2 k j) := by
  have hy : qkvA m c = Cert.KernelIdeal.ProjValue.yArr (VR1 m) c := exit0_qkv m c
  rw [hy]
  refine (Cert.KernelIdeal.ProjValue.proj_arr (VR1 m) c n j).trans ?_
  have hx : Cert.KernelIdeal.ProjValue.xArr (VR1 m) c = xA m c := entry0_x m c
  have hw : Cert.KernelIdeal.ProjValue.wArr (VR1 m) c = wcat (WqA m c) (WkA m c) (WvA m c) := entry0_w m c
  rw [hx, hw]

theorem q_entry (n : Fin 50000) (d : Fin 128) : cols0 (qkvA m c) (ix2 n d) = proj (xA m c) (WqA m c) n d := by
  rw [cols0_apply, qkv_entry]
  exact Finset.sum_congr rfl fun k _ => by rw [wcat_q]
theorem k_entry (n : Fin 50000) (d : Fin 128) : cols1 (qkvA m c) (ix2 n d) = proj (xA m c) (WkA m c) n d := by
  rw [cols1_apply, qkv_entry]
  exact Finset.sum_congr rfl fun k _ => by rw [wcat_k]
theorem v_entry (n : Fin 50000) (d : Fin 128) : cols2 (qkvA m c) (ix2 n d) = proj (xA m c) (WvA m c) n d := by
  rw [cols2_apply, qkv_entry]
  exact Finset.sum_congr rfl fun k _ => by rw [wcat_v]

/-! ## The arrays the edge region reads -/

theorem mask_entry (d : Fin 128) (h : Fin 8) : Cert.KernelIdeal.EdgeValue.maskArr (VR7 m) c (ix2 d h) = hm d h := by
  have h1 : Cert.KernelIdeal.EdgeValue.maskArr (VR7 m) c = maskTab := (entry1_mask m c).trans (exit0_mask m c)
  rw [h1, maskTab_apply]
theorem maskT_entry (h : Fin 8) (d : Fin 128) : Cert.KernelIdeal.EdgeValue.maskTArr (VR7 m) c (ix2 h d) = hm d h := by
  have h1 : Cert.KernelIdeal.EdgeValue.maskTArr (VR7 m) c = maskTabT := (entry1_maskT m c).trans (by rw [exit0_mask]; rfl)
  rw [h1, maskTabT_apply]
theorem w_entry (e : Fin 600000) (d : Fin 128) : Cert.KernelIdeal.EdgeValue.ewArr (VR7 m) c (ix2 e d) = wA m c (ix2 e d) := by
  have h1 : Cert.KernelIdeal.EdgeValue.ewArr (VR7 m) c = wA m c := (entry1_w m c).trans (exit0_w m c)
  rw [h1]
theorem cut_entry (e : Fin 600000) : Cert.KernelIdeal.EdgeValue.cutArr (VR7 m) c (ix2 e (0 : Fin 1)) = cutA m c (ix2 e (0 : Fin 1)) := by
  have h1 : Cert.KernelIdeal.EdgeValue.cutArr (VR7 m) c = cutA m c := (entry1_cut m c).trans (exit0_cut m c)
  rw [h1]

/-- Row 0 and row 1 of the index array as the programs' host operations cut them out. -/
theorem src_word (e : Fin 600000) : idxRow0 (eiA m c) (ix1 e) = eiA m c (ix2 (0 : Fin 2) e) := idxRow0_apply _ e
theorem dst_word (e : Fin 600000) : idxRow1 (eiA m c) (ix1 e) = eiA m c (ix2 (1 : Fin 2) e) := idxRow1_apply _ e
theorem ei_exit0 : (W2 m c main_arg2 : IVec S2x600000 32) = eiA m c := exit0_ei m c

/-- The gathered query row of an edge whose destination word names a node. -/
theorem qi_entry (e : Fin 600000) (d : Fin 128) (h0 : 0 ≤ (eiA m c (ix2 (1 : Fin 2) e)).toInt) (h1 : (eiA m c (ix2 (1 : Fin 2) e)).toInt < 50000) :
    Cert.KernelIdeal.EdgeValue.qiArr (VR7 m) c (ix2 e d) = proj (xA m c) (WqA m c) (node (eiA m c (ix2 (1 : Fin 2) e))) d := by
  have hq : Cert.KernelIdeal.EdgeValue.qiArr (VR7 m) c = takeRows (cols0 (qkvA m c)) (idxRow1 (eiA m c)) := (entry1_q m c).trans (by rw [ei_exit0])
  rw [hq, takeRows_apply _ _ e d (by rw [dst_word]; exact h0) (by rw [dst_word]; exact h1), dst_word, q_entry]
/-- The gathered key row of an edge whose source word names a node. -/
theorem kj_entry (e : Fin 600000) (d : Fin 128) (h0 : 0 ≤ (eiA m c (ix2 (0 : Fin 2) e)).toInt) (h1 : (eiA m c (ix2 (0 : Fin 2) e)).toInt < 50000) :
    Cert.KernelIdeal.EdgeValue.kjArr (VR7 m) c (ix2 e d) = proj (xA m c) (WkA m c) (node (eiA m c (ix2 (0 : Fin 2) e))) d := by
  have hk : Cert.KernelIdeal.EdgeValue.kjArr (VR7 m) c = takeRows (cols1 (qkvA m c)) (idxRow0 (eiA m c)) := (entry1_k m c).trans (by rw [ei_exit0])
  rw [hk, takeRows_apply _ _ e d (by rw [src_word]; exact h0) (by rw [src_word]; exact h1), src_word, k_entry]
/-- The gathered value row of an edge whose source word names a node. -/
theorem vj_entry (e : Fin 600000) (d : Fin 128) (h0 : 0 ≤ (eiA m c (ix2 (0 : Fin 2) e)).toInt) (h1 : (eiA m c (ix2 (0 : Fin 2) e)).toInt < 50000) :
    Cert.KernelIdeal.EdgeValue.vjArr (VR7 m) c (ix2 e d) = proj (xA m c) (WvA m c) (node (eiA m c (ix2 (0 : Fin 2) e))) d := by
  have hv : Cert.KernelIdeal.EdgeValue.vjArr (VR7 m) c = takeRows (cols2 (qkvA m c)) (idxRow0 (eiA m c)) := (entry1_v m c).trans (by rw [ei_exit0])
  rw [hv, takeRows_apply _ _ e d (by rw [src_word]; exact h0) (by rw [src_word]; exact h1), src_word, v_entry]

/-! ## A message entry -/

/-- The message array after the edge region, the destination words and the result, each at its literal type. -/
abbrev msgsA : FVec Ideal S600000x128 .f32 := W8 m c main_v16
abbrev dstA : IVec S600000 32 := W8 m c main_v11
abbrev resA : FVec Ideal S50000x128 .f32 := W9 m c main_v19

/-- The message array at (e, d), for an edge whose two words name nodes, is the layer's message. -/
theorem msg_entry (e : Fin 600000) (d : Fin 128)
    (hd0 : 0 ≤ (eiA m c (ix2 (1 : Fin 2) e)).toInt) (hd1 : (eiA m c (ix2 (1 : Fin 2) e)).toInt < 50000)
    (hs0 : 0 ≤ (eiA m c (ix2 (0 : Fin 2) e)).toInt) (hs1 : (eiA m c (ix2 (0 : Fin 2) e)).toInt < 50000) :
    msgsA m c (ix2 e d) = msg (xA m c) (wA m c) (eiA m c) (cutA m c) (WqA m c) (WkA m c) (WvA m c) e d := by
  have hm0 : msgsA m c = Cert.KernelIdeal.EdgeValue.msgArr (VR7 m) c := exit1_msgs m c
  rw [hm0]
  refine (Cert.KernelIdeal.EdgeValue.edge_arr (VR7 m) c e d).trans ?_
  rw [vj_entry m c e d hs0 hs1, cut_entry, ofBits_quarter]
  have inner : ∀ h : Fin 8, (∑ d' : Fin 128, (Cert.KernelIdeal.EdgeValue.qiArr (VR7 m) c (ix2 e d') * Cert.KernelIdeal.EdgeValue.ewArr (VR7 m) c (ix2 e d')
              * Cert.KernelIdeal.EdgeValue.kjArr (VR7 m) c (ix2 e d')) * Cert.KernelIdeal.EdgeValue.maskArr (VR7 m) c (ix2 d' h))
        = score (xA m c) (wA m c) (eiA m c) (WqA m c) (WkA m c) e h := by
    intro h
    have step : ∀ d' : Fin 128, (Cert.KernelIdeal.EdgeValue.qiArr (VR7 m) c (ix2 e d') * Cert.KernelIdeal.EdgeValue.ewArr (VR7 m) c (ix2 e d')
              * Cert.KernelIdeal.EdgeValue.kjArr (VR7 m) c (ix2 e d')) * Cert.KernelIdeal.EdgeValue.maskArr (VR7 m) c (ix2 d' h)
          = (proj (xA m c) (WqA m c) (node (eiA m c (ix2 (1 : Fin 2) e))) d' * wA m c (ix2 e d')
              * proj (xA m c) (WkA m c) (node (eiA m c (ix2 (0 : Fin 2) e))) d') * hm d' h := by
      intro d'
      rw [qi_entry m c e d' hd0 hd1, kj_entry m c e d' hs0 hs1, w_entry, mask_entry]
    rw [Finset.sum_congr rfl fun d' _ => step d']
    exact sum_mul_hm (fun d' => proj (xA m c) (WqA m c) (node (eiA m c (ix2 (1 : Fin 2) e))) d' * wA m c (ix2 e d')
              * proj (xA m c) (WkA m c) (node (eiA m c (ix2 (0 : Fin 2) e))) d') h
  rw [Finset.sum_congr rfl fun h _ => by rw [inner h, maskT_entry]]
  rw [sum_hm_pick (fun h => score (xA m c) (wA m c) (eiA m c) (WqA m c) (WkA m c) e h * ((1 / 4 : ℝ) : EReal) * cutA m c (ix2 e (0 : Fin 1))) d]
  rfl

/-! ## The result -/

/-- THE KERNEL'S RESULT at (n, d) is the layer's. -/
theorem kernel_out (hsrc : ∀ e : Fin 600000, 0 ≤ (eiA m c (ix2 (0 : Fin 2) e)).toInt ∧ (eiA m c (ix2 (0 : Fin 2) e)).toInt < 50000)
    (n : Fin 50000) (d : Fin 128) :
    resA m c (ix2 n d) = out (xA m c) (wA m c) (eiA m c) (cutA m c) (WqA m c) (WkA m c) (WvA m c) n d := by
  have hres : resA m c = scatterRows (dstA m c) (msgsA m c) := result_eq m c
  have hdst : dstA m c = idxRow1 (eiA m c) := (exit1_dst m c).trans ((entry1_dst m c).trans (by rw [ei_exit0]))
  rw [hres, scatterRows_apply, hdst]
  unfold out
  refine Finset.sum_congr rfl fun e _ => ?_
  rw [dst_word]
  by_cases hd : (eiA m c (ix2 (1 : Fin 2) e)).toInt = (n.val : Int)
  · rw [if_pos hd, if_pos hd]
    have hn := n.isLt
    exact msg_entry m c e d (by omega) (by omega) (hsrc e).1 (hsrc e).2
  · rw [if_neg hd, if_neg hd]

end Cert.KernelIdeal.KernelValue

end
-- ==== Proof.PreDecode.lean ====
/-
  What the precondition says about the source words: the predicate ends in the conjunction of the six finiteness
  tests with "every entry of row 0 of the index array, read signed, lies in [0, 50000)", and that last test is an
  and-reduction of the two signed compares over the 600000 positions; so when the predicate is all ones every source
  word names a node of the table.
-/
import proofs.«431115_j89910845374839_1_alg».proof.Defs
import proofs.«431115_j89910845374839_1_alg».proof.Proof.Gen.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx
open Cert.Pre_finite_inputs

variable [Cert.Pre_finite_inputs.Facts]
open Cert.Pre_finite_inputs.Facts

instance : Subsingleton S_.Idx := ⟨fun a b => funext fun d => d.elim0⟩

/-- Row 0 of the index array as the predicate reads it: a vector of 600000 words. -/
def srcVec (ei : IVec S2x600000 32) : IVec S600000 32 :=
  shapeCast S600000 (extractStridedSlice S1x600000 ![0, 0] ei slices_S2x600000_S1x600000_0_0) shapeCasts_S1x600000_S600000

theorem ofBool_eq_one (b : Bool) : BitVec.ofBool b = 1#1 ↔ b = true := by cases b <;> decide

/-- A word whose signed compare "at least zero" is the one bit is non-negative read signed. -/
theorem nonneg_of_sge (w : BitVec 32) (h : IntOp.cmpi .sge w (0#32) = 1#1) : 0 ≤ w.toInt := by
  unfold IntOp.cmpi at h
  rw [ofBool_eq_one] at h
  simp only [BitVec.sle, decide_eq_true_eq] at h
  simpa using h

/-- A word whose signed compare "below 50000" is the one bit is below 50000 read signed. -/
theorem lt_of_slt (w : BitVec 32) (h : IntOp.cmpi .slt w (50000#32) = 1#1) : w.toInt < 50000 := by
  unfold IntOp.cmpi at h
  rw [ofBool_eq_one] at h
  simp only [BitVec.slt, decide_eq_true_eq] at h
  have e : (50000#32 : BitVec 32).toInt = 50000 := by decide
  omega

/-- THE PRECONDITION DECODED: where the predicate is all ones, every source word, read signed, is in [0, 50000). -/
theorem src_in_range {F : FTy → Type} [FloatOps F] (a0 : FVec F S50000x128 .f32) (a1 : FVec F S600000x128 .f32) (a2 : IVec S2x600000 32)
    (a3 : FVec F S600000x1 .f32) (a4 a5 a6 : FVec F S128x128 .f32)
    (h : fn (F := F) a0 a1 a2 a3 a4 a5 a6 = fun _ => 1#1) (e : Fin 600000) :
    0 ≤ (srcVec a2 (ix1 e)).toInt ∧ (srcVec a2 (ix1 e)).toInt < 50000 := by
  have h0 := congrFun h ix0
  dsimp only [fn, fn_part1, fn_part2] at h0
  have h1 := (IntOp.andi_eq_one.mp h0).2
  have h2 := Host.reduce_andi_all _ _ _ _ ix0 h1 (ix1 e)
  obtain ⟨hge, hlt⟩ := IntOp.andi_eq_one.mp h2
  exact ⟨nonneg_of_sge _ hge, lt_of_slt _ hlt⟩

end Cert.PreDecode

end
-- ==== Proof.lean ====
/-
  The certificate of a graph attention layer: a fused three-way node projection and a per-edge message computation,
  each a tiled kernel, with row gathers before and an accumulating row scatter after, against the same layer written
  per head on the host.

  The three frames: each kernel program runs through its nine segments (host operations, the projection region, host
  operations, the edge region, the final scatter) without a fault and leaves its arguments as launched; the reference
  is a straight line of host operations.  The kernel's idealization rewrote nothing, so there is nothing to preserve.
  The algebraic claim: at the extended reals both programs end holding the layer's function of the arguments
  (Proof/MsgSpec.lean) — a node's result row is the sum of the messages of the edges whose destination word names it,
  and an edge's message at feature d is the lane sum of q · w · k over d's head, times a quarter, times the cutoff,
  times the value entry.  The kernel reaches it through two products with the 0/1 head mask and the scale word 1/4,
  the reference through a reshape into heads, a lane sum and a division by the square root of sixteen; the kernel
  projects once against the three weight matrices side by side, the reference three times.  The one hypothesis used is
  that every source word names a node of the table: there the kernel's filled gather and the reference's clamped
  gather read the same row.
-/
import proofs.«431115_j89910845374839_1_alg».proof.Defs
import proofs.«431115_j89910845374839_1_alg».proof.Proof.Gen.Kernel
import proofs.«431115_j89910845374839_1_alg».proof.Proof.Gen.KernelIdeal
import proofs.«431115_j89910845374839_1_alg».proof.Proof.Gen.ReferenceIdeal
import proofs.«431115_j89910845374839_1_alg».proof.Proof.Gen.Pre_finite_inputs
import proofs.«431115_j89910845374839_1_alg».proof.Proof.BitsRun
import proofs.«431115_j89910845374839_1_alg».proof.Proof.IdealRun
import proofs.«431115_j89910845374839_1_alg».proof.Proof.RefRead
import proofs.«431115_j89910845374839_1_alg».proof.Proof.RefValue
import proofs.«431115_j89910845374839_1_alg».proof.Proof.KernelValue
import proofs.«431115_j89910845374839_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel (hKernel := Cert.Kernel.Gen.facts) (hPre_finite_inputs := Cert.Pre_finite_inputs.Gen.facts) :=
  fun m ρ _ => Cert.Kernel.GenP.frame m ρ

theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Where the precondition holds, every source word of the kernel's index array names a node of the table. -/
theorem src_words (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (e : Fin 600000) :
    0 ≤ (Cert.KernelIdeal.Plumb.eiA m c (ix2 (0 : Fin 2) e)).toInt ∧ (Cert.KernelIdeal.Plumb.eiA m c (ix2 (0 : Fin 2) e)).toInt < 50000 := by
  have h := Cert.PreDecode.src_in_range (F := Ideal) _ _ _ _ _ _ _ (hpre c) e
  have e0 : Cert.PreDecode.srcVec (Cert.KernelIdeal.Plumb.eiA m c) (ix1 e) = Cert.KernelIdeal.Plumb.eiA m c (ix2 (0 : Fin 2) e) :=
    Cert.KernelIdeal.LayoutRead.idxRow0_apply (Cert.KernelIdeal.Plumb.eiA m c) e
  rw [← e0]
  exact h

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.GenP.W9 m c (Proc.devRef .tc Cert.KernelIdeal.main_v19), Cert.KernelIdeal.GenP.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2.1, (hagree c).2.2.2.2.2.1, (hagree c).2.2.2.2.2.2]
  funext i
  obtain ⟨n, d, rfl⟩ : ∃ (n : Fin 50000) (d : Fin 128), i = ix2 n d := ⟨i 0, i 1, eq_ix2 i⟩
  have hsrc := src_words m hpre c
  exact (Cert.ReferenceIdeal.RefValue.ref_out (Cert.KernelIdeal.Plumb.xA m c) (Cert.KernelIdeal.Plumb.wA m c) (Cert.KernelIdeal.Plumb.eiA m c)
      (Cert.KernelIdeal.Plumb.cutA m c) (Cert.KernelIdeal.Plumb.WqA m c) (Cert.KernelIdeal.Plumb.WkA m c) (Cert.KernelIdeal.Plumb.WvA m c) hsrc n d).trans
    (Cert.KernelIdeal.KernelValue.kernel_out m c hsrc n d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
